-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  main_v43

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S2048x1024 : Shape := ⟨2, ![2048, 1024]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x512x1024 : Shape := ⟨3, ![1, 512, 1024]⟩

abbrev nBuf : Space → Nat
  | .hbm => 27
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S8x2048x1024, .bf16⟩
  | .hbm, ⟨10, _⟩ => ⟨S8x2048x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S16384x1024, .bf16⟩
  | .hbm, ⟨16, _⟩ => ⟨S16384x1024, .bf16⟩
  | .hbm, ⟨17, _⟩ => ⟨S1x1024, .f32⟩
  | .hbm, ⟨18, _⟩ => ⟨S1x1024, .f32⟩
  | .hbm, ⟨19, _⟩ => ⟨S16384x1024, .bf16⟩
  | .hbm, ⟨20, _⟩ => ⟨S8x2048x1024, .bf16⟩
  | .hbm, ⟨21, _⟩ => ⟨S16384x1024, .bf16⟩
  | .hbm, ⟨22, _⟩ => ⟨S8x2048x1024, .bf16⟩
  | .hbm, ⟨23, _⟩ => ⟨S8x2048x1024, .f32⟩
  | .hbm, ⟨24, _⟩ => ⟨S1x1024, .f32⟩
  | .hbm, ⟨25, _⟩ => ⟨S8x2048x1024, .f32⟩
  | .hbm, ⟨26, _⟩ => ⟨S8x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x2048x1024, .f32⟩
  | .local _ .vmem, ⟨19, _⟩ => ⟨S1x2048x1024, .f32⟩
  | .local _ .vmem, ⟨20, _⟩ => ⟨S1x256x1024, .bf16⟩
  | .local _ .vmem, ⟨21, _⟩ => ⟨S1x256x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x2048x1024, .bf16⟩
  | .local _ .vmem, ⟨25, _⟩ => ⟨S1x2048x1024, .bf16⟩
  | .local _ .vmem, ⟨26, _⟩ => ⟨S1x256x1024, .f32⟩
  | .local _ .vmem, ⟨27, _⟩ => ⟨S1x256x1024, .f32⟩
  | .local _ .vmem, ⟨28, _⟩ => ⟨S1024x1024, .bf16⟩
  | .local _ .vmem, ⟨29, _⟩ => ⟨S1x1024, .f32⟩
  | .local _ .vmem, ⟨30, _⟩ => ⟨S1024x1024, .bf16⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg7_1 : Ref sig .tc := ⟨.vmem, 32, rfl⟩
abbrev cc3_stg8_0 : Ref sig .tc := ⟨.vmem, 33, rfl⟩
abbrev cc3_stg8_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem7_1 : DmaSem sig := 32
abbrev cc3_sem8_0 : DmaSem sig := 33
abbrev cc3_sem8_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x256x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

class Facts₀ : Prop where
  bitsLt_bf16_f32 : FTy.bits .bf16 < FTy.bits .f32
  shapeCasts_S8x2048x1024_S16384x1024 : S8x2048x1024.ShapeCasts S16384x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  slices_S256x2048_o0_0_S256x512 : S256x2048.Slices ![0, 0] S256x512
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  shapeCasts_S512x1024_S1x512x1024 : S512x1024.ShapeCasts S1x512x1024
  slices_S256x2048_o0_512_S256x512 : S256x2048.Slices ![0, 512] S256x512
  inb_S1x2048x1024_S1x512x1024_0_512_0 : ∀ a, (![0, 512, 0] : Fin 3 → Nat) a + S1x512x1024.size a ≤ S1x2048x1024.size a
  slices_S256x2048_o0_1024_S256x512 : S256x2048.Slices ![0, 1024] S256x512
  inb_S1x2048x1024_S1x512x1024_0_1024_0 : ∀ a, (![0, 1024, 0] : Fin 3 → Nat) a + S1x512x1024.size a ≤ S1x2048x1024.size a
  slices_S256x2048_o0_1536_S256x512 : S256x2048.Slices ![0, 1536] S256x512
  inb_S1x2048x1024_S1x512x1024_0_1536_0 : ∀ a, (![0, 1536, 0] : Fin 3 → Nat) a + S1x512x1024.size a ≤ S1x2048x1024.size a
  shapeCasts_S256x1024_S1x256x1024 : S256x1024.ShapeCasts S1x256x1024
  broadcasts_S1x1024_S256x1024 : S1x1024.Broadcasts S256x1024
  dot_S512x1024_S1024x1024_S512x1024_1_0_0_1_n_n_wf : DotDims.WF S512x1024 S1024x1024 S512x1024 [1] [0] [0] [1] [] []
  dot_S256x1024_S1024x2048_S256x2048_1_0_0_1_n_n_wf : DotDims.WF S256x1024 S1024x2048 S256x2048 [1] [0] [0] [1] [] []
  dot_S256x512_S256x1024_S512x1024_0_0_1_1_n_n_wf : DotDims.WF S256x512 S256x1024 S512x1024 [0] [0] [1] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .bf16 = 32 ∨ (Rect.block (s := S16384x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .bf16 = 32 ∨ (Rect.block (s := S16384x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S8x2048x1024.size a
  hwx2_0 : ∀ i : grid2.Coords, EltTy.bits .bf16 = 32 ∨ (Rect.block (s := S8x2048x1024) S1x256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x1024.size a ≤ S8x2048x1024.size a
  hwx2_1 : ∀ i : grid2.Coords, EltTy.bits .bf16 = 32 ∨ (Rect.block (s := S8x2048x1024) S1x2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x1024.size a ≤ S8x2048x1024.size a
  hwx2_2 : ∀ i : grid2.Coords, EltTy.bits .bf16 = 32 ∨ (Rect.block (s := S8x2048x1024) S1x256x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x1024.size a ≤ S8x2048x1024.size a
  hwx2_3 : ∀ i : grid2.Coords, EltTy.bits .f32 = 32 ∨ (Rect.block (s := S8x2048x1024) S1x2048x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S8x2048x1024.size a
  hwx3_0 : ∀ i : grid3.Coords, EltTy.bits .bf16 = 32 ∨ (Rect.block (s := S8x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S8x2048x1024.size a
  hwx3_1 : ∀ i : grid3.Coords, EltTy.bits .bf16 = 32 ∨ (Rect.block (s := S8x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S8x2048x1024.size a
  hwx3_2 : ∀ i : grid3.Coords, EltTy.bits .bf16 = 32 ∨ (Rect.block (s := S8x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x1024.size a ≤ S8x2048x1024.size a
  hwx3_3 : ∀ i : grid3.Coords, EltTy.bits .f32 = 32 ∨ (Rect.block (s := S8x2048x1024) S1x256x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S1024x1024.size a
  hwx3_4 : ∀ i : grid3.Coords, EltTy.bits .bf16 = 32 ∨ (Rect.block (s := S1024x1024) S1024x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x1024.size a ≤ S1024x1024.size a
  hwx3_6 : ∀ i : grid3.Coords, EltTy.bits .bf16 = 32 ∨ (Rect.block (s := S1024x1024) S1024x1024.size (cc3_transform_6 i) (hinb3_6 i)).WholeWords (EltTy.packing .bf16)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x256x1024.size a ≤ S8x2048x1024.size a
  hwx3_7 : ∀ i : grid3.Coords, EltTy.bits .f32 = 32 ∨ (Rect.block (s := S8x2048x1024) S1x256x1024.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x256x1024.size a ≤ S8x2048x1024.size a
  hwx3_8 : ∀ i : grid3.Coords, EltTy.bits .f32 = 32 ∨ (Rect.block (s := S8x2048x1024) S1x256x1024.size (cc3_transform_8 i) (hinb3_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x512_S256x1024_S512x1024_0_0_1_1_n_n : DotDims S256x512 S256x1024 S512x1024 where
  lhsContracting := [0]
  rhsContracting := [0]
  lhsNonContracting := [1]
  rhsNonContracting := [1]
  lhsBatch := []
  rhsBatch := []
  wf := dot_S256x512_S256x1024_S512x1024_0_0_1_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x256x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1024x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v5) S1024x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v16_0) S1x256x1024.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v16_1) S1x256x1024.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x2048x1024, .f32⟩
  | .hbm, ⟨48, _⟩ => ⟨S8x2048x2048, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  transposes_S8x2048x2048_S8x2048x2048_0_2_1 : S8x2048x2048.Transposes [0, 2, 1] S8x2048x2048
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The mathematics of the two programs, stated once over extended reals and literal index shapes.

  Both programs compute, for a batch of two sequences A, B (8 × 2048 × 1024):
    MA = A·Waᵀ + ba,  MB = B·Wbᵀ + bb                       (two linear layers)
    S[b,l,m] = Σ_h MA[b,l,h] · MB[b,m,h]                      (scores)
    out_b[b,m,d] = Σ_l softmax_m(S[b,l,·])(m) · A[b,l,d]
    out_a[b,m,d] = Σ_l softmax_l(S[b,·,m])(l) · B[b,l,d]
    out_ab = out_a·Wabᵀ + bab + out_b·Wbaᵀ
  The softmax is the stabilised one: exp (x - max) / Σ exp (x - max), the maximum a fold of `max` from -∞.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Arrays of the shapes the programs use, as functions into the extended reals. -/
abbrev T3 := (⟨3, ![8, 2048, 1024]⟩ : Shape).Idx → EReal
abbrev M2 := (⟨2, ![1024, 1024]⟩ : Shape).Idx → EReal
abbrev Flat := (⟨2, ![16384, 1024]⟩ : Shape).Idx → EReal
abbrev Row := (⟨2, ![1, 1024]⟩ : Shape).Idx → EReal
abbrev V1 := (⟨1, ![1024]⟩ : Shape).Idx → EReal

/-- The f32 pattern of -∞, as both programs write the initial value of a row maximum. -/
abbrev negInf : EReal := Ideal.ofBits .f32 0xFF800000#32

/-- A row's maximum: the fold of `max` from -∞ over the row. -/
def rowMax {n : Nat} (f : Fin n → EReal) : EReal := (Finset.univ : Finset (Fin n)).fold max negInf f

/-- The stabilised softmax of a row at position `k`. -/
def softmax {n : Nat} (f : Fin n → EReal) (k : Fin n) : EReal :=
  Ideal.div (Ideal.exp (f k - rowMax f)) (∑ j : Fin n, Ideal.exp (f j - rowMax f))

/-- A linear layer on flattened rows: `x·Wᵀ + b`, the bias a one-row matrix. -/
def lin (x : Flat) (W : M2) (b : Row) : Flat :=
  fun i => (∑ k : Fin 1024, x (ix2 (i 0) k) * W (ix2 (i 1) k)) + b (ix2 0 (i 1))

/-- The same layer on the batched array, the bias a vector. -/
def proj (x : T3) (W : M2) (b : V1) : T3 :=
  fun i => (∑ k : Fin 1024, x (ix3 (i 0) (i 1) k) * W (ix2 (i 2) k)) + b (ix1 (i 2))

/-- The feature dot product of row `p` of `P` with row `q` of `Q` in batch `b`. -/
def dotH (P Q : T3) (b : Fin 8) (p q : Fin 2048) : EReal := ∑ h : Fin 1024, P (ix3 b p h) * Q (ix3 b q h)

theorem dotH_comm (P Q : T3) (b : Fin 8) (p q : Fin 2048) : dotH P Q b p q = dotH Q P b q p :=
  Finset.sum_congr rfl fun _ _ => mul_comm _ _

/-- `out_b[b,m,d] = Σ_l softmax over m' of (MA[b,l]·MB[b,m'])  at m, times A[b,l,d]`. -/
def outB (MA MB A : T3) : T3 := fun i =>
  ∑ l : Fin 2048, softmax (fun m' => dotH MA MB (i 0) l m') (i 1) * A (ix3 (i 0) l (i 2))

/-- `out_a[b,m,d] = Σ_l softmax over l' of (MB[b,m]·MA[b,l'])  at l, times B[b,l,d]`. -/
def outA (MB MA B : T3) : T3 := fun i =>
  ∑ l : Fin 2048, softmax (fun l' => dotH MB MA (i 0) (i 1) l') l * B (ix3 (i 0) l (i 2))

/-- The closing layer, the bias a one-row matrix: `(OA·Wabᵀ + bab) + OB·Wbaᵀ`. -/
def comb (OA OB : T3) (Wab : M2) (bab : Row) (Wba : M2) : T3 := fun i =>
  ((∑ h : Fin 1024, OA (ix3 (i 0) (i 1) h) * Wab (ix2 (i 2) h)) + bab (ix2 0 (i 2)))
    + ∑ h : Fin 1024, OB (ix3 (i 0) (i 1) h) * Wba (ix2 (i 2) h)

/-- The same with the bias a vector. -/
def combV (OA OB : T3) (Wab : M2) (bab : V1) (Wba : M2) : T3 := fun i =>
  ((∑ h : Fin 1024, OA (ix3 (i 0) (i 1) h) * Wab (ix2 (i 2) h)) + bab (ix1 (i 2)))
    + ∑ h : Fin 1024, OB (ix3 (i 0) (i 1) h) * Wba (ix2 (i 2) h)

end Cert.Spec

end
-- ==== Proof.Bridge.lean ====
import proofs.«430376_j52939766890718_3_alg».proof.Proof.Spec
import Idealize.ShloMosaic.Lib.Pipeline.Value
import Idealize.ShloMosaic.Lib.ValueIdx
import Idealize.ShloMosaic.Lib.ValueLayout

noncomputable section

namespace Cert.Spec

open Idealize.ShloMosaic Idealize.ShloMosaic.ValueIdx

/-- The batched array flattened to rows reads, at row `r = 2048·p + l` and column `k`, the batched array at
    `(p, l, k)`: both indices sit at row-major position `(2048·p + l)·1024 + k`. -/
theorem flat_apply (A : T3) (h1 : (⟨3, ![8, 2048, 1024]⟩ : Shape).ShapeCasts ⟨2, ![16384, 1024]⟩)
    (p : Fin 8) (l : Fin 2048) (k : Fin 1024) (r : Fin 16384) (hr : r.val = 2048 * p.val + l.val) :
    shapeCast ⟨2, ![16384, 1024]⟩ A h1 (ix2 r k) = A (ix3 p l k) :=
  shapeCast_apply A h1 _ _ (by
    rw [Shape.rowMajor_val_three, Shape.rowMajor_val_two]
    show (p.val * 2048 + l.val) * 1024 + k.val = r.val * 1024 + k.val
    rw [hr, Nat.mul_comm 2048 p.val])

/-- The flattened array folded back to the batched shape reads, at `(p, l, k)`, the flattened array at row
    `r = 2048·p + l` and column `k`: again the two row-major positions agree. -/
theorem unflat_apply (X : Flat) (h3 : (⟨2, ![16384, 1024]⟩ : Shape).ShapeCasts ⟨3, ![8, 2048, 1024]⟩)
    (p : Fin 8) (l : Fin 2048) (k : Fin 1024) (r : Fin 16384) (hr : r.val = 2048 * p.val + l.val) :
    shapeCast ⟨3, ![8, 2048, 1024]⟩ X h3 (ix3 p l k) = X (ix2 r k) :=
  shapeCast_apply X h3 _ _ (by
    rw [Shape.rowMajor_val_three, Shape.rowMajor_val_two]
    show r.val * 1024 + k.val = (p.val * 2048 + l.val) * 1024 + k.val
    rw [hr, Nat.mul_comm 2048 p.val])

/-- The linear layer on the flattened rows, folded back to the batched shape, is the batched layer: row `(b, l)` of the
    batched array is row `2048·b + l` of the flattened one, and the one-row bias is the bias vector. -/
theorem lin_flat (A : T3) (W : M2) (b : V1)
    (h1 : (⟨3, ![8, 2048, 1024]⟩ : Shape).ShapeCasts ⟨2, ![16384, 1024]⟩)
    (h2 : (⟨1, ![1024]⟩ : Shape).ShapeCasts ⟨2, ![1, 1024]⟩)
    (h3 : (⟨2, ![16384, 1024]⟩ : Shape).ShapeCasts ⟨3, ![8, 2048, 1024]⟩) :
    shapeCast ⟨3, ![8, 2048, 1024]⟩ (lin (shapeCast ⟨2, ![16384, 1024]⟩ A h1) W (shapeCast ⟨2, ![1, 1024]⟩ b h2)) h3 = proj A W b := by
  funext i
  obtain ⟨p, l, h, rfl⟩ : ∃ p l h, i = ix3 p l h := ⟨i 0, i 1, i 2, eq_ix3 i⟩
  have hp := p.isLt
  have hl := l.isLt
  -- the flattened row of `(p, l)`
  have hlt : 2048 * p.val + l.val < 16384 := by omega
  -- the outer fold reads the flattened layer at row `2048·p + l`, column `h`
  refine (unflat_apply _ h3 p l h ⟨2048 * p.val + l.val, hlt⟩ rfl).trans ?_
  show (∑ k : Fin 1024, shapeCast ⟨2, ![16384, 1024]⟩ A h1 (ix2 ⟨2048 * p.val + l.val, hlt⟩ k) * W (ix2 h k))
      + shapeCast ⟨2, ![1, 1024]⟩ b h2 (ix2 0 h)
    = (∑ k : Fin 1024, A (ix3 p l k) * W (ix2 h k)) + b (ix1 h)
  -- the one-row bias at `(0, h)` is the bias vector at `h`
  rw [shapeCast_a_1a_apply b h2 0 h]
  -- under the sum, the flattened array at that row is the batched array at `(p, l, ·)`
  refine congrArg (· + b (ix1 h)) (Finset.sum_congr rfl fun k _ => ?_)
  rw [flat_apply A h1 p l k ⟨2048 * p.val + l.val, hlt⟩ rfl]

/-- The closing layer with its bias as a one-row matrix is the one with the bias vector. -/
theorem comb_row (OA OB : T3) (Wab : M2) (bab : V1) (Wba : M2)
    (h2 : (⟨1, ![1024]⟩ : Shape).ShapeCasts ⟨2, ![1, 1024]⟩) :
    comb OA OB Wab (shapeCast ⟨2, ![1, 1024]⟩ bab h2) Wba = combV OA OB Wab bab Wba := by
  funext i
  -- the two sides differ only in the bias term: the one-row matrix at `(0, j)` is the vector at `j`
  show ((∑ h : Fin 1024, OA (ix3 (i 0) (i 1) h) * Wab (ix2 (i 2) h))
        + shapeCast ⟨2, ![1, 1024]⟩ bab h2 (ix2 0 (i 2)))
      + (∑ h : Fin 1024, OB (ix3 (i 0) (i 1) h) * Wba (ix2 (i 2) h))
    = ((∑ h : Fin 1024, OA (ix3 (i 0) (i 1) h) * Wab (ix2 (i 2) h)) + bab (ix1 (i 2)))
      + ∑ h : Fin 1024, OB (ix3 (i 0) (i 1) h) * Wba (ix2 (i 2) h)
  rw [shapeCast_a_1a_apply bab h2 0 (i 2)]

end Cert.Spec

end
-- ==== Proof.Reg0.lean ====
import proofs.«430376_j52939766890718_3_alg».proof.Proof.Gen.KernelIdeal.Frame
import proofs.«430376_j52939766890718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with: a parameter
variable (V : (c : Dev nD) → (b : Ref sig .tc) → Buf (Elt Ideal) ((c : Thread nD τ).loc b))

/-! ## The block product's operand indices

The contraction runs over the second axis of the left operand and the first axis of the right one; the result's row
is the left operand's row and its column the right operand's column. -/

/-- The left operand's row is the result's row. -/
theorem lhs0_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column is the contraction position. -/
theorem lhs0_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row is the contraction position. -/
theorem rhs0_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column is the result's column. -/
theorem rhs0_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The stored value at an index -/

/-- The body's stored value at row `p`, column `q` of a block: the dot product of row `p` of the input block with row
    `q` of the weight (the weight is transposed before the block product, so its column `q` there is its row `q`), plus
    the bias at column `q` (the one-row bias is repeated down the rows); the sum starts from zero and the closing
    change of format is the identity on extended reals. -/
theorem pay0_apply (x0 : Vec Ideal S512x1024 .bf16) (x1 : Vec Ideal S1024x1024 .bf16) (x2 : Vec Ideal S1x1024 .f32) (p : Fin 512) (q : Fin 1024) :
    k0_pay1 (F := Ideal) x0 x1 x2 (ix2 p q) = (∑ k : Fin 1024, x0 (ix2 p k) * x1 (ix2 q k)) + x2 (ix2 0 q) := by
  unfold k0_pay1
  rw [shapeCast_self, shapeCast_self, shapeCast_self, truncf_apply, addf_apply, broadcastTo_1b_ab_apply]
  refine congrArg (· + x2 (ix2 0 q)) ?_
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs0_dot_0 _ _
    | ⟨1, _⟩ => exact (lhs0_dot_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs0_dot_0 _ _).trans hk
    | ⟨1, _⟩ => exact rhs0_dot_1 _ _)
  rw [el, er, transpose_ix2_apply]

/-! ## The blocks at a grid point -/

theorem hz0 : (![0, 0] : Fin 2 → Nat) = fun _ => 0 := funext fun a => by fin_cases a <;> rfl

/-- The index maps over the 32 grid points: the input's row block moves with the output's, the weight and the bias
    stay at their one block, and the output's row block index is below 32 with column block 0. -/
theorem idx_facts0 : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every one of the 32 row blocks of the output is some point's. -/
theorem idx_onto0 : ∀ (q0 : Fin 32), ∃ t : Fin cfg0.N, win0_3.index t = ![q0.val, 0] :=
  (by decide +kernel : ∀ (q0 : Fin 32), ∃ t : Fin grid0.N, win0_3.index t = ![q0.val, 0])

/-- The input's block at point `t` is rows `512·b … 512·b + 511` of the input, `b` the output's row block index. -/
theorem iblk0_0_apply (c : Dev nD) (t : Fin cfg0.N) (p : Fin 512) (k : Fin 1024) (r : Fin 16384)
    (hr : r.val = win0_3.index t (0 : Fin 2) * 512 + p.val) :
    (iblk0 (F := Ideal) V c 0 t : Vec Ideal S512x1024 .bf16) (ix2 p k) = (V c main_v6 : Spec.Flat) (ix2 r k) := by
  obtain ⟨e0, e1, -⟩ := idx_facts0 t
  unfold iblk0
  rw [View.read_apply]
  refine congrArg (V c main_v6 : Spec.Flat) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The weight's block at every point is the whole weight. -/
theorem iblk0_1_apply (c : Dev nD) (t : Fin cfg0.N) (q : Fin 1024) (k : Fin 1024) :
    (iblk0 (F := Ideal) V c 1 t : Vec Ideal S1024x1024 .bf16) (ix2 q k) = (V c main_v2 : Spec.M2) (ix2 q k) := by
  obtain ⟨-, -, e2, e3, -⟩ := idx_facts0 t
  unfold iblk0
  rw [View.read_apply]
  refine congrArg (V c main_v2 : Spec.M2) (funext fun a => Fin.ext ?_)
  match a with
  | ⟨0, _⟩ => show win0_1.index t (0 : Fin 2) * 1024 + 1 * q.val = q.val; omega
  | ⟨1, _⟩ => show win0_1.index t (1 : Fin 2) * 1024 + 1 * k.val = k.val; omega

/-- The bias's block at every point is the whole one-row bias. -/
theorem iblk0_2_apply (c : Dev nD) (t : Fin cfg0.N) (q : Fin 1024) :
    (iblk0 (F := Ideal) V c 2 t : Vec Ideal S1x1024 .f32) (ix2 0 q) = (V c main_v8 : Spec.Row) (ix2 0 q) := by
  obtain ⟨-, -, -, -, e4, e5, -⟩ := idx_facts0 t
  unfold iblk0
  rw [View.read_apply]
  refine congrArg (V c main_v8 : Spec.Row) (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- The linear layer at an array index whose row is `r` and whose column is `s`. -/
theorem lin0_at (x : Spec.Flat) (W : Spec.M2) (b : Spec.Row) (i : (⟨2, ![16384, 1024]⟩ : Shape).Idx) (r : Fin 16384) (s : Fin 1024)
    (hr : (i 0).val = r.val) (hs : (i 1).val = s.val) :
    Spec.lin x W b i = (∑ k : Fin 1024, x (ix2 r k) * W (ix2 s k)) + b (ix2 0 s) := by
  have e0 : i 0 = r := Fin.ext hr
  have e1 : i 1 = s := Fin.ext hs
  unfold Spec.lin
  rw [e0, e1]

/-! ## What a point writes back, and the array after the run -/

/-- What point `t` writes back is block `t` of the linear layer of the arrays the region is entered with: element
    `(p, q)` of the block is the stored value there, the input block's row `p` is the input's row `512·b + p`, and the
    output block's element `(p, q)` sits at row `512·b + p`, column `q` of the array. -/
theorem flushed0_eq (c : Dev nD) (t : Fin cfg0.N) :
    (dat0 (F := Ideal) V c).flushed 3 t = ((cfg0.win 3).blk t).view.read (Elt Ideal) (Spec.lin (V c main_v6) (V c main_v2) (V c main_v8)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  funext j
  obtain ⟨p, q, rfl⟩ : ∃ (p : Fin 512) (q : Fin 1024), j = ix2 p q := ⟨j 0, j 1, eq_ix2 j⟩
  obtain ⟨e0, e1, e2, e3, e4, e5, e6, e7⟩ := idx_facts0 t
  have hr : win0_3.index t (0 : Fin 2) * 512 + p.val < 16384 := by have := p.isLt; omega
  show k0_pay1 (F := Ideal) (iblk0 V c 0 t) (iblk0 V c 1 t) (iblk0 V c 2 t) (ix2 p q)
    = Spec.lin (V c main_v6) (V c main_v2) (V c main_v8) (((cfg0.win 3).blk t).view.emb (ix2 p q))
  refine (pay0_apply _ _ _ p q).trans ?_
  refine Eq.trans ?_ (lin0_at _ _ _ (((cfg0.win 3).blk t).view.emb (ix2 p q)) ⟨win0_3.index t (0 : Fin 2) * 512 + p.val, hr⟩ q ?_ ?_).symm
  · exact congrArg₂ (· + ·) (Finset.sum_congr rfl fun k _ => congrArg₂ (· * ·) (iblk0_0_apply V c t p k _ rfl) (iblk0_1_apply V c t q k)) (iblk0_2_apply V c t q)
  · show win0_3.index t (0 : Fin 2) * 512 + 1 * p.val = win0_3.index t (0 : Fin 2) * 512 + p.val; omega
  · show win0_3.index t (1 : Fin 2) * 1024 + 1 * q.val = q.val; omega

/-- An index of the array is in point `t`'s block iff each coordinate is in the block's range on its axis. -/
theorem mem_blk0 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v10).slice (win0_3.rect t)).set ↔ _
  rw [View.set_slice_whole, Rect.mem_set_unit]
  exact Iff.rfl

/-- Every index of the output array lies in some point's block: row `r` in the block of the point whose row block
    index is `r / 512`. -/
theorem cover0 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- Region 0 (the first linear layer): after the run its output array holds `x·Wᵀ + b` of the arrays it was entered with. -/
theorem arr0 (c : Dev nD) : (dat0 (F := Ideal) V c).arrAt 3 cfg0.N = Spec.lin (V c main_v6) (V c main_v2) (V c main_v8) :=
  (dat0 V c).arrAt_eq_of_cover 3 _ (fun t _ => flushed0_eq V c t) cover0

end Cert.KernelIdeal.Val

end
-- ==== Proof.Reg1.lean ====
import proofs.«430376_j52939766890718_3_alg».proof.Proof.Gen.KernelIdeal.Frame
import proofs.«430376_j52939766890718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with: a parameter
variable (V : (c : Dev nD) → (b : Ref sig .tc) → Buf (Elt Ideal) ((c : Thread nD τ).loc b))

/-! ## The block product's operand indices

The contraction runs over the second axis of the left operand and the first axis of the right one; the result's row
is the left operand's row and its column the right operand's column. -/

/-- The left operand's row is the result's row. -/
theorem lhs1_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column is the contraction position. -/
theorem lhs1_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row is the contraction position. -/
theorem rhs1_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column is the result's column. -/
theorem rhs1_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The stored value at an index -/

/-- The body's stored value at row `p`, column `q` of a block: the dot product of row `p` of the input block with row
    `q` of the weight (the weight is transposed before the block product, so its column `q` there is its row `q`), plus
    the bias at column `q` (the one-row bias is repeated down the rows); the sum starts from zero and the closing
    change of format is the identity on extended reals. -/
theorem pay1_apply (x0 : Vec Ideal S512x1024 .bf16) (x1 : Vec Ideal S1024x1024 .bf16) (x2 : Vec Ideal S1x1024 .f32) (p : Fin 512) (q : Fin 1024) :
    k1_pay1 (F := Ideal) x0 x1 x2 (ix2 p q) = (∑ k : Fin 1024, x0 (ix2 p k) * x1 (ix2 q k)) + x2 (ix2 0 q) := by
  unfold k1_pay1
  rw [shapeCast_self, shapeCast_self, shapeCast_self, truncf_apply, addf_apply, broadcastTo_1b_ab_apply]
  refine congrArg (· + x2 (ix2 0 q)) ?_
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs1_dot_0 _ _
    | ⟨1, _⟩ => exact (lhs1_dot_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs1_dot_0 _ _).trans hk
    | ⟨1, _⟩ => exact rhs1_dot_1 _ _)
  rw [el, er, transpose_ix2_apply]

/-! ## The blocks at a grid point -/

theorem hz1 : (![0, 0] : Fin 2 → Nat) = fun _ => 0 := funext fun a => by fin_cases a <;> rfl

/-- The index maps over the 32 grid points: the input's row block moves with the output's, the weight and the bias
    stay at their one block, and the output's row block index is below 32 with column block 0. -/
theorem idx_facts1 : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 31 ∧ win1_3.index t (1 : Fin 2) = 0 :=
  (by decide +kernel : ∀ t : Fin grid1.N, _)

/-- Every one of the 32 row blocks of the output is some point's. -/
theorem idx_onto1 : ∀ (q0 : Fin 32), ∃ t : Fin cfg1.N, win1_3.index t = ![q0.val, 0] :=
  (by decide +kernel : ∀ (q0 : Fin 32), ∃ t : Fin grid1.N, win1_3.index t = ![q0.val, 0])

/-- The input's block at point `t` is rows `512·b … 512·b + 511` of the input, `b` the output's row block index. -/
theorem iblk1_0_apply (c : Dev nD) (t : Fin cfg1.N) (p : Fin 512) (k : Fin 1024) (r : Fin 16384)
    (hr : r.val = win1_3.index t (0 : Fin 2) * 512 + p.val) :
    (iblk1 (F := Ideal) V c 0 t : Vec Ideal S512x1024 .bf16) (ix2 p k) = (V c main_v7 : Spec.Flat) (ix2 r k) := by
  obtain ⟨e0, e1, -⟩ := idx_facts1 t
  unfold iblk1
  rw [View.read_apply]
  refine congrArg (V c main_v7 : Spec.Flat) (funext fun a => Fin.ext ?_)
  match a with
  | ⟨0, _⟩ => show win1_0.index t (0 : Fin 2) * 512 + 1 * p.val = r.val; omega
  | ⟨1, _⟩ => show win1_0.index t (1 : Fin 2) * 1024 + 1 * k.val = k.val; omega

/-- The weight's block at every point is the whole weight. -/
theorem iblk1_1_apply (c : Dev nD) (t : Fin cfg1.N) (q : Fin 1024) (k : Fin 1024) :
    (iblk1 (F := Ideal) V c 1 t : Vec Ideal S1024x1024 .bf16) (ix2 q k) = (V c main_v3 : Spec.M2) (ix2 q k) := by
  obtain ⟨-, -, e2, e3, -⟩ := idx_facts1 t
  unfold iblk1
  rw [View.read_apply]
  refine congrArg (V c main_v3 : Spec.M2) (funext fun a => Fin.ext ?_)
  match a with
  | ⟨0, _⟩ => show win1_1.index t (0 : Fin 2) * 1024 + 1 * q.val = q.val; omega
  | ⟨1, _⟩ => show win1_1.index t (1 : Fin 2) * 1024 + 1 * k.val = k.val; omega

/-- The bias's block at every point is the whole one-row bias. -/
theorem iblk1_2_apply (c : Dev nD) (t : Fin cfg1.N) (q : Fin 1024) :
    (iblk1 (F := Ideal) V c 2 t : Vec Ideal S1x1024 .f32) (ix2 0 q) = (V c main_v9 : Spec.Row) (ix2 0 q) := by
  obtain ⟨-, -, -, -, e4, e5, -⟩ := idx_facts1 t
  unfold iblk1
  rw [View.read_apply]
  refine congrArg (V c main_v9 : Spec.Row) (funext fun a => Fin.ext ?_)
  match a with
  | ⟨0, _⟩ => show win1_2.index t (0 : Fin 2) * 1 + 1 * 0 = 0; omega
  | ⟨1, _⟩ => show win1_2.index t (1 : Fin 2) * 1024 + 1 * q.val = q.val; omega

/-- The linear layer at an array index whose row is `r` and whose column is `s`. -/
theorem lin1_at (x : Spec.Flat) (W : Spec.M2) (b : Spec.Row) (i : (⟨2, ![16384, 1024]⟩ : Shape).Idx) (r : Fin 16384) (s : Fin 1024)
    (hr : (i 0).val = r.val) (hs : (i 1).val = s.val) :
    Spec.lin x W b i = (∑ k : Fin 1024, x (ix2 r k) * W (ix2 s k)) + b (ix2 0 s) := by
  have e0 : i 0 = r := Fin.ext hr
  have e1 : i 1 = s := Fin.ext hs
  unfold Spec.lin
  rw [e0, e1]

/-! ## What a point writes back, and the array after the run -/

/-- What point `t` writes back is block `t` of the linear layer of the arrays the region is entered with: element
    `(p, q)` of the block is the stored value there, the input block's row `p` is the input's row `512·b + p`, and the
    output block's element `(p, q)` sits at row `512·b + p`, column `q` of the array. -/
theorem flushed1_eq (c : Dev nD) (t : Fin cfg1.N) :
    (dat1 (F := Ideal) V c).flushed 3 t = ((cfg1.win 3).blk t).view.read (Elt Ideal) (Spec.lin (V c main_v7) (V c main_v3) (V c main_v9)) := by
  show (cfg1.win 3).cut (grid1.coords t) ((dat1 V c).after 3 t) = _
  rw [after1_3]
  unfold out1_3
  rw [View.canon_unit_zero hz1]
  simp only [View.ld_unit_zero (S := S512x1024) hz1, View.ld_unit_zero (S := S1024x1024) hz1, View.ld_unit_zero (S := S1x1024) hz1]
  funext j
  obtain ⟨p, q, rfl⟩ : ∃ (p : Fin 512) (q : Fin 1024), j = ix2 p q := ⟨j 0, j 1, eq_ix2 j⟩
  obtain ⟨e0, e1, e2, e3, e4, e5, e6, e7⟩ := idx_facts1 t
  have hr : win1_3.index t (0 : Fin 2) * 512 + p.val < 16384 := by have := p.isLt; omega
  show k1_pay1 (F := Ideal) (iblk1 V c 0 t) (iblk1 V c 1 t) (iblk1 V c 2 t) (ix2 p q)
    = Spec.lin (V c main_v7) (V c main_v3) (V c main_v9) (((cfg1.win 3).blk t).view.emb (ix2 p q))
  refine (pay1_apply _ _ _ p q).trans ?_
  refine Eq.trans ?_ (lin1_at _ _ _ (((cfg1.win 3).blk t).view.emb (ix2 p q)) ⟨win1_3.index t (0 : Fin 2) * 512 + p.val, hr⟩ q ?_ ?_).symm
  · exact congrArg₂ (· + ·) (Finset.sum_congr rfl fun k _ => congrArg₂ (· * ·) (iblk1_0_apply V c t p k _ rfl) (iblk1_1_apply V c t q k)) (iblk1_2_apply V c t q)
  · show win1_3.index t (0 : Fin 2) * 512 + 1 * p.val = win1_3.index t (0 : Fin 2) * 512 + p.val; omega
  · show win1_3.index t (1 : Fin 2) * 1024 + 1 * q.val = q.val; omega

/-- An index of the array is in point `t`'s block iff each coordinate is in the block's range on its axis. -/
theorem mem_blk1 (t : Fin cfg1.N) (i : S16384x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v12).slice (win1_3.rect t)).set ↔ _
  rw [View.set_slice_whole, Rect.mem_set_unit]
  exact Iff.rfl

/-- Every index of the output array lies in some point's block: row `r` in the block of the point whose row block
    index is `r / 512`. -/
theorem cover1 (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  obtain ⟨t, ht⟩ := idx_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- Region 1 (the second linear layer): after the run its output array holds `x·Wᵀ + b` of the arrays it was entered with. -/
theorem arr1 (c : Dev nD) : (dat1 (F := Ideal) V c).arrAt 3 cfg1.N = Spec.lin (V c main_v7) (V c main_v3) (V c main_v9) :=
  (dat1 V c).arrAt_eq_of_cover 3 _ (fun t _ => flushed1_eq V c t) cover1

end Cert.KernelIdeal.Val

end
-- ==== Proof.Reg2Body.lean ====
import proofs.«430376_j52939766890718_3_alg».proof.Proof.Gen.KernelIdeal.Frame
import proofs.«430376_j52939766890718_3_alg».proof.Proof.Spec
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-!
  One grid point of the second region, read as a value. The body takes a tile of 256 query rows `q`, all 2048 key rows
  `k` and the tile's 256 value rows `v`; it forms the scores `s[r, m'] = ∑ₕ q[r, h] · k[m', h]`, each row's stabilised
  softmax over the keys, and then, for each of four chunks of 512 key rows, adds `∑ᵣ softmax(s[r, ·])(m) · v[r, d]` to
  the output's rows of that chunk. The lemmas below read every operation at an index — the two products as sums over
  their one contracted axis (the second contracts the query-row axis of both operands), the row maximum as a fold of
  `max` from -∞, the row sum as a sum, a statistic kept as a column and broadcast back as the statistic of its row — and
  then read the four stores back as ONE function of the buffer's index: old contents plus the tile's contribution. At
  the first point of a batch the old contents are the block of zeros the body has just stored.
-/

/-- What one tile of 256 query rows `q` adds to `out_b` at key row `m` and feature `d`: each query row's softmax over the
    2048 keys `k`, read at key `m`, times that row's value `v`. -/
def tileB (q : Vec Ideal S1x256x1024 .bf16) (k : Vec Ideal S1x2048x1024 .bf16) (v : Vec Ideal S1x256x1024 .bf16)
    (m : Fin 2048) (d : Fin 1024) : EReal :=
  ∑ r : Fin 256, Spec.softmax (fun m' => ∑ h : Fin 1024, q (ix3 0 r h) * k (ix3 0 m' h)) m * v (ix3 0 r d)

namespace R2B

/-! ## Two column forms of a row statistic kept as a column -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scores: query rows against key rows -/

/-- The score of query row `r` against key row `m'`: their dot product over the 1024 features. -/
def score (q : Vec Ideal S1x256x1024 .bf16) (k : Vec Ideal S1x2048x1024 .bf16) (r : Fin 256) (m' : Fin 2048) : EReal :=
  ∑ h : Fin 1024, q (ix3 0 r h) * k (ix3 0 m' h)

theorem sc_lhs_0 (i : S256x2048.Idx) (p : dot_S256x1024_S1024x2048_S256x2048_1_0_0_1_n_n.contr.Idx) :
    (dot_S256x1024_S1024x2048_S256x2048_1_0_0_1_n_n.lhsIdx i p 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem sc_lhs_1 (i : S256x2048.Idx) (p : dot_S256x1024_S1024x2048_S256x2048_1_0_0_1_n_n.contr.Idx) :
    (dot_S256x1024_S1024x2048_S256x2048_1_0_0_1_n_n.lhsIdx i p 1).val = (p ⟨0, by decide⟩).val :=
  dot_S256x1024_S1024x2048_S256x2048_1_0_0_1_n_n.lhsIdx_val_of_single rfl i p
theorem sc_rhs_0 (i : S256x2048.Idx) (p : dot_S256x1024_S1024x2048_S256x2048_1_0_0_1_n_n.contr.Idx) :
    (dot_S256x1024_S1024x2048_S256x2048_1_0_0_1_n_n.rhsIdx i p 0).val = (p ⟨0, by decide⟩).val :=
  dot_S256x1024_S1024x2048_S256x2048_1_0_0_1_n_n.rhsIdx_val_of_single rfl i p
theorem sc_rhs_1 (i : S256x2048.Idx) (p : dot_S256x1024_S1024x2048_S256x2048_1_0_0_1_n_n.contr.Idx) :
    (dot_S256x1024_S1024x2048_S256x2048_1_0_0_1_n_n.rhsIdx i p 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The first product at `(r, m')`: the sum over the feature `h` of the left operand at `(r, h)` times the right at `(h, m')`. -/
theorem scores_matmul_apply (l : FVec Ideal S256x1024 .bf16) (rt : FVec Ideal S1024x2048 .bf16) (r : Fin 256) (m' : Fin 2048) :
    matmul dot_S256x1024_S1024x2048_S256x2048_1_0_0_1_n_n none l rt (constant S256x2048 .f32 0x00000000#32) (ix2 r m')
      = ∑ h : Fin 1024, l (ix2 r h) * rt (ix2 h m') := by
  refine (Ideal.matmul_constant_zero_apply dot_S256x1024_S1024x2048_S256x2048_1_0_0_1_n_n none l rt (ix2 r m')).trans ?_
  rw [← Equiv.sum_comp (contrEquiv1 dot_S256x1024_S1024x2048_S256x2048_1_0_0_1_n_n 1024 rfl rfl).symm]
  refine Finset.sum_congr rfl fun h _ => ?_
  have hk := contrEquiv1_symm_val dot_S256x1024_S1024x2048_S256x2048_1_0_0_1_n_n 1024 rfl rfl h
  have el : dot_S256x1024_S1024x2048_S256x2048_1_0_0_1_n_n.lhsIdx (ix2 r m') ((contrEquiv1 dot_S256x1024_S1024x2048_S256x2048_1_0_0_1_n_n 1024 rfl rfl).symm h) = ix2 r h := funext fun a => Fin.ext (by
    match a with
    | ⟨0, _⟩ => exact sc_lhs_0 _ _
    | ⟨1, _⟩ => exact (sc_lhs_1 _ _).trans hk)
  have er : dot_S256x1024_S1024x2048_S256x2048_1_0_0_1_n_n.rhsIdx (ix2 r m') ((contrEquiv1 dot_S256x1024_S1024x2048_S256x2048_1_0_0_1_n_n 1024 rfl rfl).symm h) = ix2 h m' := funext fun a => Fin.ext (by
    match a with
    | ⟨0, _⟩ => exact (sc_rhs_0 _ _).trans hk
    | ⟨1, _⟩ => exact sc_rhs_1 _ _)
  rw [el, er]

/-! ## The row statistics and the softmax -/

/-- The row index a one-axis reduction along the keys inserts. -/
theorem lift_row (h : S256x2048.Reduces [1] S256) (r : Fin 256) (j : Fin 2048) : h.lift (ix1 r) j = ix2 r j :=
  funext fun a => Fin.ext (by
    match a with
    | ⟨0, _⟩ => rfl
    | ⟨1, _⟩ => rfl)

/-- The row maximum the body takes (a fold of `max` from -∞ along the keys) is the specification's. -/
theorem rowmax_apply (s8 : FVec Ideal S256x2048 .f32) (h : S256x2048.Reduces [1] S256) (hφ : FKind.Formats .f32)
    (hacc : (0xFF800000#32 : BitVec 32) = FKind.maximumf.neutral .f32 hφ) (r : Fin 256) :
    multiReduction (F := Ideal) .maximumf [1] S256 s8 0xFF800000#32 h hφ hacc (ix1 r) = Spec.rowMax fun j : Fin 2048 => s8 (ix2 r j) := by
  refine (Ideal.multiReduction_maximumf_single s8 0xFF800000#32 h hφ hacc (ix1 r)).trans ?_
  unfold Spec.rowMax
  exact congrArg (fun f : Fin 2048 → EReal => (Finset.univ : Finset (Fin 2048)).fold max Spec.negInf f)
    (funext fun j => congrArg s8 (lift_row h r j))

/-- The row sum the body takes along the keys. -/
theorem rowsum_apply (e : FVec Ideal S256x2048 .f32) (h : S256x2048.Reduces [1] S256) (hφ : FKind.Formats .f32)
    (hacc : (0x00000000#32 : BitVec 32) = FKind.add.neutral .f32 hφ) (r : Fin 256) :
    multiReduction (F := Ideal) .add [1] S256 e 0x00000000#32 h hφ hacc (ix1 r) = ∑ j : Fin 2048, e (ix2 r j) := by
  refine (Ideal.multiReduction_add_single e 0x00000000#32 h hφ hacc (ix1 r)).trans ?_
  exact Finset.sum_congr rfl fun j _ => congrArg e (lift_row h r j)

/-- A row statistic kept as a column and broadcast back over the keys reads, at `(r, m')`, the statistic of row `r`. -/
theorem keepcol_apply (x : FVec Ideal S256 .f32) (h1 : S256.ShapeCasts S256x1) (h2 : S256x1.Broadcasts S256x2048)
    (r : Fin 256) (m' : Fin 2048) : broadcastTo S256x2048 (shapeCast S256x1 x h1) h2 (ix2 r m') = x (ix1 r) :=
  (broadcastTo_a1_ab_apply _ h2 r m').trans (shapeCast_a_a1_apply x h1 r 0)

/-- The exponentials of a score block's rows, each row shifted by its maximum. -/
abbrev expShift (s8 : FVec Ideal S256x2048 .f32) (h : S256x2048.Reduces [1] S256) (hφ : FKind.Formats .f32)
    (hmax : (0xFF800000#32 : BitVec 32) = FKind.maximumf.neutral .f32 hφ) (h1 : S256.ShapeCasts S256x1)
    (h2 : S256x1.Broadcasts S256x2048) : FVec Ideal S256x2048 .f32 :=
  exp (subf s8 (broadcastTo S256x2048 (shapeCast S256x1 (multiReduction .maximumf [1] S256 s8 0xFF800000#32 h hφ hmax) h1) h2))

theorem expShift_apply (s8 : FVec Ideal S256x2048 .f32) (h : S256x2048.Reduces [1] S256) (hφ : FKind.Formats .f32)
    (hmax : (0xFF800000#32 : BitVec 32) = FKind.maximumf.neutral .f32 hφ) (h1 : S256.ShapeCasts S256x1)
    (h2 : S256x1.Broadcasts S256x2048) (r : Fin 256) (j : Fin 2048) :
    expShift s8 h hφ hmax h1 h2 (ix2 r j) = Ideal.exp (s8 (ix2 r j) - Spec.rowMax fun j' : Fin 2048 => s8 (ix2 r j')) :=
  congrArg (fun t => Ideal.exp (s8 (ix2 r j) - t)) ((keepcol_apply _ h1 h2 r j).trans (rowmax_apply s8 h hφ hmax r))

/-- Exponentials over their row sums: the stabilised softmax of each row of the score block. -/
theorem softmax_block_apply (s8 : FVec Ideal S256x2048 .f32) (h : S256x2048.Reduces [1] S256) (hφ : FKind.Formats .f32)
    (hmax : (0xFF800000#32 : BitVec 32) = FKind.maximumf.neutral .f32 hφ)
    (hadd : (0x00000000#32 : BitVec 32) = FKind.add.neutral .f32 hφ) (h1 : S256.ShapeCasts S256x1)
    (h2 : S256x1.Broadcasts S256x2048) (hlt : FTy.bits .bf16 < FTy.bits .f32) (r : Fin 256) (m' : Fin 2048) :
    truncf .bf16 (divf (expShift s8 h hφ hmax h1 h2)
      (broadcastTo S256x2048 (shapeCast S256x1 (multiReduction .add [1] S256 (expShift s8 h hφ hmax h1 h2) 0x00000000#32 h hφ hadd) h1) h2))
      hlt (ix2 r m') = Spec.softmax (fun j : Fin 2048 => s8 (ix2 r j)) m' := by
  unfold Spec.softmax
  refine congrArg₂ Ideal.div (expShift_apply s8 h hφ hmax h1 h2 r m') ?_
  refine (keepcol_apply _ h1 h2 r m').trans ((rowsum_apply _ h hφ hadd r).trans ?_)
  exact Finset.sum_congr rfl fun j _ => expShift_apply s8 h hφ hmax h1 h2 r j

/-- The score block the body computes is the specification's scores. -/
theorem scores_apply (q : Vec Ideal S1x256x1024 .bf16) (k : Vec Ideal S1x2048x1024 .bf16)
    (hq : S1x256x1024.ShapeCasts S256x1024) (hk : S1x2048x1024.ShapeCasts S2048x1024)
    (ht : S2048x1024.Transposes [1, 0] S1024x2048) (r : Fin 256) (m' : Fin 2048) :
    matmul (F := Ideal) dot_S256x1024_S1024x2048_S256x2048_1_0_0_1_n_n none (shapeCast S256x1024 q hq : FVec Ideal S256x1024 .bf16)
      (transpose S1024x2048 [1, 0] (shapeCast S2048x1024 k hk : FVec Ideal S2048x1024 .bf16) ht : FVec Ideal S1024x2048 .bf16)
      (constant S256x2048 .f32 0x00000000#32) (ix2 r m')
      = score q k r m' := by
  refine (scores_matmul_apply _ _ r m').trans ?_
  unfold score
  refine Finset.sum_congr rfl fun h _ => ?_
  exact congrArg₂ (· * ·) (shapeCast_1ab_ab_apply q hq r h)
    ((transpose_ix2_apply _ ht h m').trans (shapeCast_1ab_ab_apply k hk m' h))

/-- The attention weights the body computes, at query row `r` and key `m'`: the stabilised softmax of the row's scores. -/
theorem attn_apply (q : Vec Ideal S1x256x1024 .bf16) (k : Vec Ideal S1x2048x1024 .bf16) (r : Fin 256) (m' : Fin 2048) :
    k2_pay5 (F := Ideal) q k (ix2 r m') = Spec.softmax (score q k r) m' := by
  unfold k2_pay5
  refine (softmax_block_apply _ _ _ _ _ _ _ _ r m').trans ?_
  exact congrArg (fun f : Fin 2048 → EReal => Spec.softmax f m') (funext fun j => scores_apply q k _ _ _ r j)

/-! ## A chunk's contribution: the weights' columns against the values -/

theorem cb_lhs_0 (i : S512x1024.Idx) (p : dot_S256x512_S256x1024_S512x1024_0_0_1_1_n_n.contr.Idx) :
    (dot_S256x512_S256x1024_S512x1024_0_0_1_1_n_n.lhsIdx i p 0).val = (p ⟨0, by decide⟩).val :=
  dot_S256x512_S256x1024_S512x1024_0_0_1_1_n_n.lhsIdx_val_of_single rfl i p
theorem cb_lhs_1 (i : S512x1024.Idx) (p : dot_S256x512_S256x1024_S512x1024_0_0_1_1_n_n.contr.Idx) :
    (dot_S256x512_S256x1024_S512x1024_0_0_1_1_n_n.lhsIdx i p 1).val = (i 0).val := by
  unfold DotDims.lhsIdx
  rw [dif_neg (show ¬(1 : Fin S256x512.rank) ∈ dot_S256x512_S256x1024_S512x1024_0_0_1_1_n_n.lhsBatch by decide), dif_pos (show (1 : Fin S256x512.rank) ∈ dot_S256x512_S256x1024_S512x1024_0_0_1_1_n_n.lhsNonContracting by decide)]
  rfl
theorem cb_rhs_0 (i : S512x1024.Idx) (p : dot_S256x512_S256x1024_S512x1024_0_0_1_1_n_n.contr.Idx) :
    (dot_S256x512_S256x1024_S512x1024_0_0_1_1_n_n.rhsIdx i p 0).val = (p ⟨0, by decide⟩).val :=
  dot_S256x512_S256x1024_S512x1024_0_0_1_1_n_n.rhsIdx_val_of_single rfl i p
theorem cb_rhs_1 (i : S512x1024.Idx) (p : dot_S256x512_S256x1024_S512x1024_0_0_1_1_n_n.contr.Idx) :
    (dot_S256x512_S256x1024_S512x1024_0_0_1_1_n_n.rhsIdx i p 1).val = (i 1).val := by
  unfold DotDims.rhsIdx
  rw [dif_neg (show ¬(1 : Fin S256x1024.rank) ∈ dot_S256x512_S256x1024_S512x1024_0_0_1_1_n_n.rhsBatch by decide), dif_pos (show (1 : Fin S256x1024.rank) ∈ dot_S256x512_S256x1024_S512x1024_0_0_1_1_n_n.rhsNonContracting by decide)]
  rfl

/-- The second product at `(mm, dd)`: it contracts the query-row axis of BOTH operands, so it is the sum over the query row
    `r` of the left operand at `(r, mm)` times the right at `(r, dd)`. -/
theorem contrib_matmul_apply (w : FVec Ideal S256x512 .bf16) (v : FVec Ideal S256x1024 .bf16) (mm : Fin 512) (dd : Fin 1024) :
    matmul dot_S256x512_S256x1024_S512x1024_0_0_1_1_n_n none w v (constant S512x1024 .f32 0x00000000#32) (ix2 mm dd)
      = ∑ r : Fin 256, w (ix2 r mm) * v (ix2 r dd) := by
  refine (Ideal.matmul_constant_zero_apply dot_S256x512_S256x1024_S512x1024_0_0_1_1_n_n none w v (ix2 mm dd)).trans ?_
  rw [← Equiv.sum_comp (contrEquiv1 dot_S256x512_S256x1024_S512x1024_0_0_1_1_n_n 256 rfl rfl).symm]
  refine Finset.sum_congr rfl fun r _ => ?_
  have hk := contrEquiv1_symm_val dot_S256x512_S256x1024_S512x1024_0_0_1_1_n_n 256 rfl rfl r
  have el : dot_S256x512_S256x1024_S512x1024_0_0_1_1_n_n.lhsIdx (ix2 mm dd) ((contrEquiv1 dot_S256x512_S256x1024_S512x1024_0_0_1_1_n_n 256 rfl rfl).symm r) = ix2 r mm := funext fun a => Fin.ext (by
    match a with
    | ⟨0, _⟩ => exact (cb_lhs_0 _ _).trans hk
    | ⟨1, _⟩ => exact cb_lhs_1 _ _)
  have er : dot_S256x512_S256x1024_S512x1024_0_0_1_1_n_n.rhsIdx (ix2 mm dd) ((contrEquiv1 dot_S256x512_S256x1024_S512x1024_0_0_1_1_n_n 256 rfl rfl).symm r) = ix2 r dd := funext fun a => Fin.ext (by
    match a with
    | ⟨0, _⟩ => exact (cb_rhs_0 _ _).trans hk
    | ⟨1, _⟩ => exact cb_rhs_1 _ _)
  rw [el, er]

/-- The value block as the body reshapes it reads, at `(r, dd)`, the loaded block at `(0, r, dd)`. -/
theorem vals_apply (v : Vec Ideal S1x256x1024 .bf16) (r : Fin 256) (dd : Fin 1024) :
    k2_pay6 (F := Ideal) v (ix2 r dd) = v (ix3 0 r dd) := by
  unfold k2_pay6
  exact shapeCast_1ab_ab_apply v _ r dd

/-- One chunk of 512 key rows from column offset `o` of the weights, against the values: at `(mm, dd)` the tile's
    contribution at key row `mrow = o + mm`. -/
theorem chunk_apply (o : Nat) (hs : S256x2048.Slices ![0, o] S256x512) (q : Vec Ideal S1x256x1024 .bf16)
    (k : Vec Ideal S1x2048x1024 .bf16) (v : Vec Ideal S1x256x1024 .bf16) (mm : Fin 512) (dd : Fin 1024) (mrow : Fin 2048)
    (hm : mrow.val = o + mm.val) :
    matmul (F := Ideal) dot_S256x512_S256x1024_S512x1024_0_0_1_1_n_n none
      (extractStridedSlice S256x512 ![0, o] (k2_pay5 (F := Ideal) q k) hs : FVec Ideal S256x512 .bf16) (k2_pay6 (F := Ideal) v)
      (constant S512x1024 .f32 0x00000000#32) (ix2 mm dd) = tileB q k v mrow dd := by
  refine (contrib_matmul_apply _ _ mm dd).trans ?_
  unfold tileB
  refine Finset.sum_congr rfl fun r _ => ?_
  exact congrArg₂ (· * ·) ((slice2_axis1_apply o _ hs r mm mrow hm).trans (attn_apply q k r mrow)) (vals_apply v r dd)

/-- The old contents as the body reshapes them there and back read, at `(u, mm, dd)`, themselves. -/
theorem prev_apply (prev : Vec Ideal S1x512x1024 .f32) (h : S1x512x1024.ShapeCasts S512x1024) (mm : Fin 512) (dd : Fin 1024) :
    shapeCast S512x1024 prev h (ix2 mm dd) = prev (ix3 0 mm dd) := shapeCast_1ab_ab_apply prev h mm dd

/-! ## The four stores' payloads at an index: old contents plus the tile's contribution -/

/-- Chunk 0 (key rows 0 … 511). -/
theorem pay7_apply (q : Vec Ideal S1x256x1024 .bf16) (k : Vec Ideal S1x2048x1024 .bf16) (v : Vec Ideal S1x256x1024 .bf16)
    (prev : Vec Ideal S1x512x1024 .f32) (u : Fin 1) (mm : Fin 512) (dd : Fin 1024) (mrow : Fin 2048) (hm : mrow.val = 0 + mm.val) :
    k2_pay7 (F := Ideal) q k v prev (ix3 u mm dd) = prev (ix3 u mm dd) + tileB q k v mrow dd := by
  obtain rfl : u = 0 := Subsingleton.elim _ _
  unfold k2_pay7
  refine (shapeCast_ab_1ab_apply _ _ 0 mm dd).trans ?_
  exact congrArg₂ (· + ·) (prev_apply prev _ mm dd) (chunk_apply 0 _ q k v mm dd mrow hm)

/-- Chunk 1 (key rows 512 … 1023). -/
theorem pay1_apply (q : Vec Ideal S1x256x1024 .bf16) (k : Vec Ideal S1x2048x1024 .bf16) (v : Vec Ideal S1x256x1024 .bf16)
    (prev : Vec Ideal S1x512x1024 .f32) (u : Fin 1) (mm : Fin 512) (dd : Fin 1024) (mrow : Fin 2048) (hm : mrow.val = 512 + mm.val) :
    k2_pay1 (F := Ideal) (k2_pay8 (F := Ideal) q k v) prev (ix3 u mm dd) = prev (ix3 u mm dd) + tileB q k v mrow dd := by
  obtain rfl : u = 0 := Subsingleton.elim _ _
  unfold k2_pay1
  refine (shapeCast_ab_1ab_apply _ _ 0 mm dd).trans ?_
  refine congrArg₂ (· + ·) (prev_apply prev _ mm dd) ?_
  unfold k2_pay8
  exact chunk_apply 512 _ q k v mm dd mrow hm

/-- Chunk 2 (key rows 1024 … 1535). -/
theorem pay2_apply (q : Vec Ideal S1x256x1024 .bf16) (k : Vec Ideal S1x2048x1024 .bf16) (v : Vec Ideal S1x256x1024 .bf16)
    (prev : Vec Ideal S1x512x1024 .f32) (u : Fin 1) (mm : Fin 512) (dd : Fin 1024) (mrow : Fin 2048) (hm : mrow.val = 1024 + mm.val) :
    k2_pay2 (F := Ideal) (k2_pay5 (F := Ideal) q k) (k2_pay6 (F := Ideal) v) prev (ix3 u mm dd) = prev (ix3 u mm dd) + tileB q k v mrow dd := by
  obtain rfl : u = 0 := Subsingleton.elim _ _
  unfold k2_pay2
  refine (shapeCast_ab_1ab_apply _ _ 0 mm dd).trans ?_
  exact congrArg₂ (· + ·) (prev_apply prev _ mm dd) (chunk_apply 1024 _ q k v mm dd mrow hm)

/-- Chunk 3 (key rows 1536 … 2047). -/
theorem pay3_apply (q : Vec Ideal S1x256x1024 .bf16) (k : Vec Ideal S1x2048x1024 .bf16) (v : Vec Ideal S1x256x1024 .bf16)
    (prev : Vec Ideal S1x512x1024 .f32) (u : Fin 1) (mm : Fin 512) (dd : Fin 1024) (mrow : Fin 2048) (hm : mrow.val = 1536 + mm.val) :
    k2_pay3 (F := Ideal) (k2_pay5 (F := Ideal) q k) (k2_pay6 (F := Ideal) v) prev (ix3 u mm dd) = prev (ix3 u mm dd) + tileB q k v mrow dd := by
  obtain rfl : u = 0 := Subsingleton.elim _ _
  unfold k2_pay3
  refine (shapeCast_ab_1ab_apply _ _ 0 mm dd).trans ?_
  exact congrArg₂ (· + ·) (prev_apply prev _ mm dd) (chunk_apply 1536 _ q k v mm dd mrow hm)

/-- The block of zeros the first point of a batch stores reads `0` everywhere. -/
theorem pay4_apply (y : S1x2048x1024.Idx) : k2_pay4 (F := Ideal) y = 0 := by
  obtain ⟨u, m, d, rfl⟩ : ∃ (u : Fin 1) (m : Fin 2048) (d : Fin 1024), y = ix3 u m d := ⟨y 0, y 1, y 2, eq_ix3 y⟩
  unfold k2_pay4
  refine (shapeCast_ab_1ab_apply _ _ u m d).trans ?_
  exact Ideal.ofBits_zero_f32

/-! ## What the stores leave, as one function of the buffer's index -/

theorem hz3 : (![0, 0, 0] : Fin 3 → Nat) = fun _ => 0 := funext fun a => by fin_cases a <;> rfl

/-- What the body leaves at each index of the buffer when it held `xo`: the old value plus the tile's contribution at the
    index's key row and feature. -/
def GB (q : Vec Ideal S1x256x1024 .bf16) (k : Vec Ideal S1x2048x1024 .bf16) (v : Vec Ideal S1x256x1024 .bf16)
    (xo : Vec Ideal S1x2048x1024 .f32) : Vec Ideal S1x2048x1024 .f32 :=
  fun y => xo y + tileB q k v ⟨(y 1).val, (y 1).isLt⟩ ⟨(y 2).val, (y 2).isLt⟩

/-- At an index of the chunk of 512 key rows from `o`, written by the chunk's own coordinates. -/
theorem GB_emb (q : Vec Ideal S1x256x1024 .bf16) (k : Vec Ideal S1x2048x1024 .bf16) (v : Vec Ideal S1x256x1024 .bf16)
    (xo : Vec Ideal S1x2048x1024 .f32) (o : Nat) (inb : ∀ a, (![0, o, 0] : Fin 3 → Nat) a + (![1, 512, 1024] : Fin 3 → Nat) a ≤ S1x2048x1024.size a)
    (u : Fin 1) (mm : Fin 512) (dd : Fin 1024) (mrow : Fin 2048) (hm : mrow.val = o + mm.val) :
    GB q k v xo ((Rect.unit (s := S1x2048x1024) ![0, o, 0] ![1, 512, 1024] inb).emb (ix3 u mm dd))
      = View.ld xo (Rect.unit (s := S1x2048x1024) ![0, o, 0] ![1, 512, 1024] inb) (ix3 u mm dd) + tileB q k v mrow dd := by
  unfold GB
  refine congrArg₂ (· + ·) rfl (congrArg₂ (tileB q k v) (Fin.ext ?_) (Fin.ext ?_))
  · show o + 1 * mm.val = mrow.val
    omega
  · show 0 + 1 * dd.val = dd.val
    omega

/-- A store of a chunk whose payload is "what the chunk's rows held, plus the tile's contribution" is a block of `GB`. -/
theorem piece_ok (q : Vec Ideal S1x256x1024 .bf16) (k : Vec Ideal S1x2048x1024 .bf16) (v : Vec Ideal S1x256x1024 .bf16)
    (xo : Vec Ideal S1x2048x1024 .f32) (o : Nat) (inb : ∀ a, (![0, o, 0] : Fin 3 → Nat) a + (![1, 512, 1024] : Fin 3 → Nat) a ≤ S1x2048x1024.size a)
    (w : Vec Ideal S1x512x1024 .f32 → FVec Ideal S1x512x1024 .f32)
    (hw : ∀ (prev : Vec Ideal S1x512x1024 .f32) (u : Fin 1) (mm : Fin 512) (dd : Fin 1024) (mrow : Fin 2048), mrow.val = o + mm.val →
      w prev (ix3 u mm dd) = prev (ix3 u mm dd) + tileB q k v mrow dd)
    (prev : Vec Ideal S1x512x1024 .f32) (hprev : prev = View.ld xo (Rect.unit (s := S1x2048x1024) ![0, o, 0] ![1, 512, 1024] inb))
    (x : S1x512x1024.Idx) :
    w prev x = GB q k v xo ((Rect.unit (s := S1x2048x1024) ![0, o, 0] ![1, 512, 1024] inb).emb x) := by
  subst hprev
  obtain ⟨u, mm, dd, rfl⟩ : ∃ (u : Fin 1) (mm : Fin 512) (dd : Fin 1024), x = ix3 u mm dd := ⟨x 0, x 1, x 2, eq_ix3 x⟩
  have ho : o + 512 ≤ 2048 := inb 1
  have hmm := mm.isLt
  exact (hw _ u mm dd ⟨o + mm.val, by omega⟩ rfl).trans (GB_emb q k v xo o inb u mm dd ⟨o + mm.val, by omega⟩ rfl).symm

/-- The index `(0, m, d)` lies in the chunk of 512 key rows from `o` when `m` does. -/
theorem mem_chunk (o : Nat) (inb : ∀ a, (![0, o, 0] : Fin 3 → Nat) a + (![1, 512, 1024] : Fin 3 → Nat) a ≤ S1x2048x1024.size a)
    (m : Fin 2048) (d : Fin 1024) (hlo : o ≤ m.val) (hhi : m.val < o + 512) :
    ix3 (0 : Fin 1) m d ∈ (Rect.unit (s := S1x2048x1024) ![0, o, 0] ![1, 512, 1024] inb).set := by
  rw [Rect.mem_set_unit]
  intro a
  match a with
  | ⟨0, _⟩ => exact ⟨Nat.le_refl 0, Nat.one_pos⟩
  | ⟨1, _⟩ => exact ⟨hlo, hhi⟩
  | ⟨2, _⟩ => exact ⟨Nat.zero_le _, by show d.val < 0 + 1024; omega⟩

/-! ## Case A: the loads of the output's rows read the zero block back -/

/-- A load after the store of the zero block alone reads zeros. -/
theorem readCov_zero (vw : View sig .tc .vmem S1x2048x1024 .f32)
    (inbW : ∀ a, (![0, 0, 0] : Fin 3 → Nat) a + S1x2048x1024.size a ≤ S1x2048x1024.size a) (B : LoadRect S1x2048x1024) :
    vw.readCov [(⟨Rect.unit (s := S1x2048x1024) ![0, 0, 0] S1x2048x1024.size inbW, k2_pay4 (F := Ideal)⟩ : View.Piece (Elt Ideal) S1x2048x1024 .f32)] B
      = fun _ => 0 := by
  rw [View.readCov_eq_canon']
  funext j
  rw [View.canon_unit_zero hz3]
  exact pay4_apply _

/-- A store into key rows that end at or before `o` does not reach a load of the 512 rows from `o`. -/
theorem readCov_skip (vw : View sig .tc .vmem S1x2048x1024 .f32) (o' o : Nat)
    (inb' : ∀ a, (![0, o', 0] : Fin 3 → Nat) a + (![1, 512, 1024] : Fin 3 → Nat) a ≤ S1x2048x1024.size a)
    (inb : ∀ a, (![0, o, 0] : Fin 3 → Nat) a + (![1, 512, 1024] : Fin 3 → Nat) a ≤ S1x2048x1024.size a)
    (w : S1x512x1024.Idx → Elt Ideal .f32) (L : List (View.Piece (Elt Ideal) S1x2048x1024 .f32)) (h : o' + 512 ≤ o) :
    vw.readCov ((⟨Rect.unit (s := S1x2048x1024) ![0, o', 0] ![1, 512, 1024] inb', w⟩ : View.Piece (Elt Ideal) S1x2048x1024 .f32) :: L)
        (Rect.unit (s := S1x2048x1024) ![0, o, 0] ![1, 512, 1024] inb).toLoadRect
      = vw.readCov L (Rect.unit (s := S1x2048x1024) ![0, o, 0] ![1, 512, 1024] inb).toLoadRect :=
  View.readCov_cons_of_disjoint vw _ L _ (Rect.unit_disjoint (inb := inb') (inb' := inb) 1 (Or.inl h))

/-- Four stores that are blocks of one function `G`, made after any earlier stores: the canon is `G` wherever one of the four covers. -/
theorem canon_four_then (G : S1x2048x1024.Idx → Elt Ideal .f32) (p3 p2 p1 p0 : View.Piece (Elt Ideal) S1x2048x1024 .f32)
    (L' : List (View.Piece (Elt Ideal) S1x2048x1024 .f32))
    (hp : ∀ p ∈ [p3, p2, p1, p0], ∀ x : p.1.shape.Idx, p.2 x = G (p.1.emb x)) (y : S1x2048x1024.Idx)
    (hy : ∃ p ∈ [p3, p2, p1, p0], y ∈ p.1.set) : View.canon (p3 :: p2 :: p1 :: p0 :: L') y = G y :=
  View.canon_append_of_pieces G L' [p3, p2, p1, p0] hp y hy

end R2B

/-- At a point that is not the first of its batch the body leaves, in the output's buffer holding `xo`, `xo` plus the
    tile's contribution (four row chunks of 512 key rows, each loaded, added to and stored back). -/
theorem out2_B_val (c : Dev nD) (i : grid2.Coords) (a2 : Memref sig .tc .vmem S1x256x1024 .bf16) (h2 : a2.IsWhole)
    (a3 : Memref sig .tc .vmem S1x2048x1024 .bf16) (h3 : a3.IsWhole) (a4 : Memref sig .tc .vmem S1x256x1024 .bf16) (h4 : a4.IsWhole)
    (a5 : Memref sig .tc .vmem S1x2048x1024 .f32) (h5 : a5.IsWhole) (hc : ¬cond2_0 i)
    (x0 : Vec Ideal S1x256x1024 .bf16) (x1 : Vec Ideal S1x2048x1024 .bf16) (x2 : Vec Ideal S1x256x1024 .bf16)
    (xo : Vec Ideal S1x2048x1024 .f32) (m : Fin 2048) (d : Fin 1024) :
    out2_B_3 (F := Ideal) c i a2 h2 a3 h3 a4 h4 a5 h5 hc x0 x1 x2 xo (ix3 0 m d) = xo (ix3 0 m d) + tileB x0 x1 x2 m d := by
  have hcov := cover2_B_3 c i a2 h2 a3 h3 a4 h4 a5 h5 hc x0 x1 x2 xo (ix3 0 m d)
  unfold out2_B_3
  rw [View.read_writes_eq_canon _ _ _ (cover2_B_3 c i a2 h2 a3 h3 a4 h4 a5 h5 hc x0 x1 x2 xo)]
  refine (View.canon_apply_of_pieces (R2B.GB x0 x1 x2 xo) _ ?_ (ix3 0 m d) hcov).trans rfl
  unfold kernelRun2_B
  dsimp only
  sl_unfold_words
  simp only [View.readAt_eq_ld, h2.read_unread, h3.read_unread, h4.read_unread, h5.read_unread,
    View.ld_unit_zero (S := S1x256x1024) R2B.hz3, View.ld_unit_zero (S := S1x2048x1024) R2B.hz3]
  refine List.forall_mem_cons.2 ⟨fun x => R2B.piece_ok x0 x1 x2 xo 1536 _ (fun prev => k2_pay3 (k2_pay5 x0 x1) (k2_pay6 x2) prev)
    (fun prev u mm dd mrow hm => R2B.pay3_apply x0 x1 x2 prev u mm dd mrow hm) _ rfl x, ?_⟩
  refine List.forall_mem_cons.2 ⟨fun x => R2B.piece_ok x0 x1 x2 xo 1024 _ (fun prev => k2_pay2 (k2_pay5 x0 x1) (k2_pay6 x2) prev)
    (fun prev u mm dd mrow hm => R2B.pay2_apply x0 x1 x2 prev u mm dd mrow hm) _ rfl x, ?_⟩
  refine List.forall_mem_cons.2 ⟨fun x => R2B.piece_ok x0 x1 x2 xo 512 _ (fun prev => k2_pay1 (k2_pay8 x0 x1 x2) prev)
    (fun prev u mm dd mrow hm => R2B.pay1_apply x0 x1 x2 prev u mm dd mrow hm) _ rfl x, ?_⟩
  refine List.forall_mem_cons.2 ⟨fun x => R2B.piece_ok x0 x1 x2 xo 0 _ (fun prev => k2_pay7 x0 x1 x2 prev)
    (fun prev u mm dd mrow hm => R2B.pay7_apply x0 x1 x2 prev u mm dd mrow hm) _ rfl x, ?_⟩
  exact fun _ h => absurd h List.not_mem_nil

/-- At the first point of a batch the body first stores zeros, so it leaves the tile's contribution alone. -/
theorem out2_A_val (c : Dev nD) (i : grid2.Coords) (a2 : Memref sig .tc .vmem S1x256x1024 .bf16) (h2 : a2.IsWhole)
    (a3 : Memref sig .tc .vmem S1x2048x1024 .bf16) (h3 : a3.IsWhole) (a4 : Memref sig .tc .vmem S1x256x1024 .bf16) (h4 : a4.IsWhole)
    (a5 : Memref sig .tc .vmem S1x2048x1024 .f32) (h5 : a5.IsWhole) (hc : cond2_0 i)
    (x0 : Vec Ideal S1x256x1024 .bf16) (x1 : Vec Ideal S1x2048x1024 .bf16) (x2 : Vec Ideal S1x256x1024 .bf16)
    (m : Fin 2048) (d : Fin 1024) :
    out2_A_3 (F := Ideal) c i a2 h2 a3 h3 a4 h4 a5 h5 hc x0 x1 x2 (ix3 0 m d) = tileB x0 x1 x2 m d := by
  unfold out2_A_3
  rw [View.read_writes_eq_canon _ _ _ (cover2_A_3 c i a2 h2 a3 h3 a4 h4 a5 h5 hc x0 x1 x2)]
  unfold kernelRun2_A
  dsimp only
  sl_unfold_words
  simp only [View.readAt_eq_ld, h2.read_unread, h3.read_unread, h4.read_unread,
    View.ld_unit_zero (S := S1x256x1024) R2B.hz3, View.ld_unit_zero (S := S1x2048x1024) R2B.hz3]
  refine (R2B.canon_four_then (R2B.GB x0 x1 x2 fun _ => 0) _ _ _ _ _ ?_ (ix3 0 m d) ?_).trans (zero_add _)
  · refine List.forall_mem_cons.2 ⟨fun x => R2B.piece_ok x0 x1 x2 (fun _ => 0) 1536 _ (fun prev => k2_pay3 (k2_pay5 x0 x1) (k2_pay6 x2) prev)
      (fun prev u mm dd mrow hm => R2B.pay3_apply x0 x1 x2 prev u mm dd mrow hm) _
      ((R2B.readCov_skip a5.view 1024 1536 _ _ _ _ (by decide)).trans ((R2B.readCov_skip a5.view 512 1536 _ _ _ _ (by decide)).trans
        ((R2B.readCov_skip a5.view 0 1536 _ _ _ _ (by decide)).trans (R2B.readCov_zero a5.view _ _)))) x, ?_⟩
    refine List.forall_mem_cons.2 ⟨fun x => R2B.piece_ok x0 x1 x2 (fun _ => 0) 1024 _ (fun prev => k2_pay2 (k2_pay5 x0 x1) (k2_pay6 x2) prev)
      (fun prev u mm dd mrow hm => R2B.pay2_apply x0 x1 x2 prev u mm dd mrow hm) _
      ((R2B.readCov_skip a5.view 512 1024 _ _ _ _ (by decide)).trans
        ((R2B.readCov_skip a5.view 0 1024 _ _ _ _ (by decide)).trans (R2B.readCov_zero a5.view _ _))) x, ?_⟩
    refine List.forall_mem_cons.2 ⟨fun x => R2B.piece_ok x0 x1 x2 (fun _ => 0) 512 _ (fun prev => k2_pay1 (k2_pay8 x0 x1 x2) prev)
      (fun prev u mm dd mrow hm => R2B.pay1_apply x0 x1 x2 prev u mm dd mrow hm) _
      ((R2B.readCov_skip a5.view 0 512 _ _ _ _ (by decide)).trans (R2B.readCov_zero a5.view _ _)) x, ?_⟩
    refine List.forall_mem_cons.2 ⟨fun x => R2B.piece_ok x0 x1 x2 (fun _ => 0) 0 _ (fun prev => k2_pay7 x0 x1 x2 prev)
      (fun prev u mm dd mrow hm => R2B.pay7_apply x0 x1 x2 prev u mm dd mrow hm) _ (R2B.readCov_zero a5.view _ _) x, ?_⟩
    exact fun _ h => absurd h List.not_mem_nil
  · have hm := m.isLt
    by_cases c3 : 1536 ≤ m.val
    · refine ⟨_, .head _, ?_⟩
      exact R2B.mem_chunk 1536 Facts₀.inb_S1x2048x1024_S1x512x1024_0_1536_0 m d c3 (by omega)
    by_cases c2 : 1024 ≤ m.val
    · refine ⟨_, .tail _ (.head _), ?_⟩
      exact R2B.mem_chunk 1024 Facts₀.inb_S1x2048x1024_S1x512x1024_0_1024_0 m d c2 (by omega)
    by_cases c1 : 512 ≤ m.val
    · refine ⟨_, .tail _ (.tail _ (.head _)), ?_⟩
      exact R2B.mem_chunk 512 Facts₀.inb_S1x2048x1024_S1x512x1024_0_512_0 m d c1 (by omega)
    · refine ⟨_, .tail _ (.tail _ (.tail _ (.head _))), ?_⟩
      exact R2B.mem_chunk 0 Facts₀.inb_S1x2048x1024_S1x512x1024_0_0_0 m d (Nat.zero_le _) (by omega)

end Cert.KernelIdeal.Val

end
-- ==== Proof.Reg2.lean ====
import proofs.«430376_j52939766890718_3_alg».proof.Proof.Gen.KernelIdeal.Frame
import proofs.«430376_j52939766890718_3_alg».proof.Proof.Spec
import proofs.«430376_j52939766890718_3_alg».proof.Proof.Reg2Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with: a parameter
variable (V : (c : Dev nD) → (b : Ref sig .tc) → Buf (Elt Ideal) ((c : Thread nD τ).loc b))

/-- The block indices of the four windows at a point, in closed form: batch `t / 8`, query tile `t % 8`. -/
theorem idx_facts : ∀ t : Fin cfg2.N,
    win2_0.index t 0 = t.val / 8 ∧ win2_0.index t 1 = t.val % 8 ∧ win2_0.index t 2 = 0
    ∧ win2_1.index t 0 = t.val / 8 ∧ win2_1.index t 1 = 0 ∧ win2_1.index t 2 = 0
    ∧ win2_2.index t 0 = t.val / 8 ∧ win2_2.index t 1 = t.val % 8 ∧ win2_2.index t 2 = 0
    ∧ win2_3.index t 0 = t.val / 8 ∧ win2_3.index t 1 = 0 ∧ win2_3.index t 2 = 0 :=
  (by decide +kernel : ∀ t : Fin grid2.N, _)

/-- The grid has 64 points. -/
theorem N2 : cfg2.N = 64 := N_2

/-- The batch of point `n` (`n / 8` for the 64 points of the grid). -/
def bat (n : ℕ) : Fin 8 := ⟨n / 8 % 8, Nat.mod_lt _ (by norm_num)⟩

/-- Row `r` of query tile `j` among the 2048 rows of a batch: `256·j + r` (for the eight tiles `j < 8`). -/
def row (j : ℕ) (r : Fin 256) : Fin 2048 := ⟨(256 * j + r.val) % 2048, Nat.mod_lt _ (by norm_num)⟩

/-- Block `t` of the query window read at `(0, r, h)` is the projected array `MA` at batch `t / 8`, row `256·(t % 8) + r`. -/
theorem blk0 (c : Dev nD) (t : Fin cfg2.N) (r : Fin 256) (h : Fin 1024) :
    iblk2 V c 0 t (ix3 0 r h) = V c main_v11 (ix3 (bat t.val) (row (t.val % 8) r) h) := by
  obtain ⟨h00, h01, h02, -⟩ := idx_facts t
  have ht : t.val < 64 := lt_of_lt_of_eq t.isLt N2
  have hr : r.val < 256 := r.isLt
  unfold iblk2
  rw [View.read_apply]
  show V c main_v11 _ = _
  congr 1
  funext a
  apply Fin.ext
  match a with
  | ⟨0, _⟩ => show win2_0.index t 0 * 1 + 1 * (0 : Fin 1).val = t.val / 8 % 8; rw [h00]; simp; omega
  | ⟨1, _⟩ => show win2_0.index t 1 * 256 + 1 * r.val = (256 * (t.val % 8) + r.val) % 2048; rw [h01]; omega
  | ⟨2, _⟩ => show win2_0.index t 2 * 1024 + 1 * h.val = h.val; rw [h02]; omega

/-- Block `t` of the key window is the whole batch `t / 8` of `MB`. -/
theorem blk1 (c : Dev nD) (t : Fin cfg2.N) (m' : Fin 2048) (h : Fin 1024) :
    iblk2 V c 1 t (ix3 0 m' h) = V c main_v13 (ix3 (bat t.val) m' h) := by
  obtain ⟨-, -, -, h10, h11, h12, -⟩ := idx_facts t
  have ht : t.val < 64 := lt_of_lt_of_eq t.isLt N2
  unfold iblk2
  rw [View.read_apply]
  show V c main_v13 _ = _
  congr 1
  funext a
  apply Fin.ext
  match a with
  | ⟨0, _⟩ => show win2_1.index t 0 * 1 + 1 * (0 : Fin 1).val = t.val / 8 % 8; rw [h10]; simp; omega
  | ⟨1, _⟩ => show win2_1.index t 1 * 2048 + 1 * m'.val = m'.val; rw [h11]; omega
  | ⟨2, _⟩ => show win2_1.index t 2 * 1024 + 1 * h.val = h.val; rw [h12]; omega

/-- Block `t` of the value window read at `(0, r, d)` is `A` at batch `t / 8`, row `256·(t % 8) + r`. -/
theorem blk2 (c : Dev nD) (t : Fin cfg2.N) (r : Fin 256) (d : Fin 1024) :
    iblk2 V c 2 t (ix3 0 r d) = V c main_v0 (ix3 (bat t.val) (row (t.val % 8) r) d) := by
  obtain ⟨-, -, -, -, -, -, h20, h21, h22, -⟩ := idx_facts t
  have ht : t.val < 64 := lt_of_lt_of_eq t.isLt N2
  have hr : r.val < 256 := r.isLt
  unfold iblk2
  rw [View.read_apply]
  show V c main_v0 _ = _
  congr 1
  funext a
  apply Fin.ext
  match a with
  | ⟨0, _⟩ => show win2_2.index t 0 * 1 + 1 * (0 : Fin 1).val = t.val / 8 % 8; rw [h20]; simp; omega
  | ⟨1, _⟩ => show win2_2.index t 1 * 256 + 1 * r.val = (256 * (t.val % 8) + r.val) % 2048; rw [h21]; omega
  | ⟨2, _⟩ => show win2_2.index t 2 * 1024 + 1 * d.val = d.val; rw [h22]; omega

/-- What query tile `j` of batch `b` adds to `out_b` at key row `m`, feature `d`. -/
def part (MA MB A : Spec.T3) (b : Fin 8) (j : ℕ) (m : Fin 2048) (d : Fin 1024) : EReal :=
  ∑ r : Fin 256, Spec.softmax (fun m' => Spec.dotH MA MB b (row j r) m') m * A (ix3 b (row j r) d)

/-- The tile's contribution over the blocks of point `t` is that of tile `t % 8` of batch `t / 8`. -/
theorem tileB_eq (c : Dev nD) (t : Fin cfg2.N) (m : Fin 2048) (d : Fin 1024) :
    tileB (iblk2 V c 0 t) (iblk2 V c 1 t) (iblk2 V c 2 t) m d
      = part (V c main_v11) (V c main_v13) (V c main_v0) (bat t.val) (t.val % 8) m d := by
  unfold tileB part
  refine Finset.sum_congr rfl fun r _ => ?_
  rw [blk2 V c t r d]
  refine congrArg (fun f : Fin 2048 → EReal => Spec.softmax f m * _) (funext fun m' => ?_)
  unfold Spec.dotH
  refine Finset.sum_congr rfl fun h _ => ?_
  rw [blk0 V c t r h, blk1 V c t m' h]

/-- THE ACCUMULATION, in closed form: after point `n` the output's buffer holds, at `(m, d)`, the contributions of the
    query tiles `0 … n % 8` of batch `n / 8` — by induction on the point: a first point of a batch stores its tile's
    contribution alone, every other point adds its tile's to what the point before left. -/
theorem outsAt_eq (c : Dev nD) (n : ℕ) : ∀ (hn : n < cfg2.N) (m : Fin 2048) (d : Fin 1024),
    outsAt2 V c n hn (ix3 0 m d)
      = ∑ j ∈ Finset.range (n % 8 + 1), part (V c main_v11) (V c main_v13) (V c main_v0) (bat n) j m d := by
  induction n using Nat.strong_induction_on with
  | _ n ih =>
    intro hn m d
    by_cases h0 : n % 8 = 0
    · rw [outsAt2_A V c ⟨n, hn⟩ h0]
      refine (out2_A_val c (grid2.coords ⟨n, hn⟩) (ms2_0 ⟨n, hn⟩) (hs2_0 ⟨n, hn⟩) (ms2_1 ⟨n, hn⟩) (hs2_1 ⟨n, hn⟩)
        (ms2_2 ⟨n, hn⟩) (hs2_2 ⟨n, hn⟩) (ms2_3 ⟨n, hn⟩) (hs2_3 ⟨n, hn⟩) ((hcond2_0 ⟨n, hn⟩).mpr h0)
        (iblk2 V c 0 ⟨n, hn⟩) (iblk2 V c 1 ⟨n, hn⟩) (iblk2 V c 2 ⟨n, hn⟩) m d).trans ?_
      rw [tileB_eq V c ⟨n, hn⟩ m d, h0, Finset.sum_range_one]
    · rw [outsAt2_B V c ⟨n, hn⟩ h0]
      refine (out2_B_val c (grid2.coords ⟨n, hn⟩) (ms2_0 ⟨n, hn⟩) (hs2_0 ⟨n, hn⟩) (ms2_1 ⟨n, hn⟩) (hs2_1 ⟨n, hn⟩)
        (ms2_2 ⟨n, hn⟩) (hs2_2 ⟨n, hn⟩) (ms2_3 ⟨n, hn⟩) (hs2_3 ⟨n, hn⟩) (fun h => h0 ((hcond2_0 ⟨n, hn⟩).mp h))
        (iblk2 V c 0 ⟨n, hn⟩) (iblk2 V c 1 ⟨n, hn⟩) (iblk2 V c 2 ⟨n, hn⟩)
        (outsAt2 V c (n - 1) (Nat.lt_of_le_of_lt (Nat.sub_le _ _) hn)) m d).trans ?_
      have hb : bat (n - 1) = bat n := Fin.ext (by show (n - 1) / 8 % 8 = n / 8 % 8; omega)
      have hr : (n - 1) % 8 + 1 = n % 8 := by omega
      rw [ih (n - 1) (by omega) _ m d, tileB_eq V c ⟨n, hn⟩ m d, hb, hr, Finset.sum_range_succ]

/-- The 2048 rows of a batch are the eight tiles' 256 rows each: `(j, r) ↦ 256·j + r`. -/
def rowEquiv : Fin 8 × Fin 256 ≃ Fin 2048 := finProdFinEquiv

theorem rowEquiv_apply (j : Fin 8) (r : Fin 256) : rowEquiv (j, r) = row j.val r :=
  Fin.ext (by
    have hj : j.val < 8 := j.isLt
    have hr : r.val < 256 := r.isLt
    show r.val + 256 * j.val = (256 * j.val + r.val) % 2048
    omega)

/-- A sum over the 2048 rows, tile by tile (a re-indexing of a finite sum in a commutative monoid). -/
theorem sum_rows {M : Type*} [AddCommMonoid M] (f : Fin 2048 → M) :
    ∑ l : Fin 2048, f l = ∑ j ∈ Finset.range 8, ∑ r : Fin 256, f (row j r) := by
  rw [← Fin.sum_univ_eq_sum_range (fun j => ∑ r : Fin 256, f (row j r)) 8, ← Equiv.sum_comp rowEquiv f,
    Fintype.sum_prod_type]
  exact Finset.sum_congr rfl fun j _ => Finset.sum_congr rfl fun r _ => congrArg f (rowEquiv_apply j r)

/-- Block `t` of the output window is the whole batch `t / 8` of its array. -/
theorem blk3 (c : Dev nD) (t : Fin cfg2.N) (G : Spec.T3) (m : Fin 2048) (d : Fin 1024) :
    ((cfg2.win 3).blk t).view.read (Elt Ideal) G (ix3 0 m d) = G (ix3 (bat t.val) m d) := by
  obtain ⟨-, -, -, -, -, -, -, -, -, h30, h31, h32⟩ := idx_facts t
  have ht : t.val < 64 := lt_of_lt_of_eq t.isLt N2
  rw [View.read_apply]
  show G _ = _
  congr 1
  funext a
  apply Fin.ext
  match a with
  | ⟨0, _⟩ => show win2_3.index t 0 * 1 + 1 * (0 : Fin 1).val = t.val / 8 % 8; rw [h30]; simp; omega
  | ⟨1, _⟩ => show win2_3.index t 1 * 2048 + 1 * m.val = m.val; rw [h31]; omega
  | ⟨2, _⟩ => show win2_3.index t 2 * 1024 + 1 * d.val = d.val; rw [h32]; omega

/-- At the last point of a batch the buffer holds the batch's block of `Spec.outB`: all eight tiles are in. -/
theorem flushed_eq (c : Dev nD) (t : Fin cfg2.N) (hf : (cfg2.win 3).flush t = true) :
    (dat2 (F := Ideal) V c).flushed 3 t
      = ((cfg2.win 3).blk t).view.read (Elt Ideal) (Spec.outB (V c main_v11) (V c main_v13) (V c main_v0)) := by
  have h7 : t.val % 8 = 7 := (flush2_3 t).mp hf
  show (cfg2.win 3).cut (grid2.coords t) ((dat2 V c).after 3 t) = _
  rw [after2_3]
  funext y
  obtain ⟨a, m, d, rfl⟩ : ∃ (a : Fin 1) (m : Fin 2048) (d : Fin 1024), y = ix3 a m d := ⟨y 0, y 1, y 2, eq_ix3 y⟩
  obtain rfl : a = 0 := Subsingleton.elim _ _
  rw [blk3 c t _ m d]
  show outsAt2 V c t.val t.isLt (ix3 0 m d) = _
  rw [outsAt_eq V c t.val t.isLt m d, h7]
  exact (sum_rows (fun l : Fin 2048 => Spec.softmax (fun m' => Spec.dotH (V c main_v11) (V c main_v13) (bat t.val) l m') m
    * (V c main_v0 : Spec.T3) (ix3 (bat t.val) l d))).symm

/-- Every index `(b, m, d)` of the output array lies in the block written back at the last point `8·b + 7` of batch `b`. -/
theorem cover (i : S8x2048x1024.Idx) :
    ∃ t : Fin cfg2.N, (cfg2.win 3).flush t = true ∧ i ∈ ((cfg2.win 3).blk t).view.set := by
  have hb : (i 0).val < 8 := (i 0).isLt
  have h1 : (i 1).val < 2048 := (i 1).isLt
  have h2 : (i 2).val < 1024 := (i 2).isLt
  have ht : 8 * (i 0).val + 7 < cfg2.N := by rw [N2]; omega
  obtain ⟨-, -, -, -, -, -, -, -, -, h30, h31, h32⟩ := idx_facts ⟨8 * (i 0).val + 7, ht⟩
  refine ⟨⟨8 * (i 0).val + 7, ht⟩, (flush2_3 _).mpr (by show (8 * (i 0).val + 7) % 8 = 7; omega), ?_⟩
  show i ∈ ((View.whole main_v14).slice (win2_3.rect ⟨8 * (i 0).val + 7, ht⟩)).set
  rw [View.set_slice_whole, Rect.mem_set_unit]
  intro a
  match a with
  | ⟨0, _⟩ =>
    show win2_3.index ⟨8 * (i 0).val + 7, ht⟩ 0 * 1 ≤ (i 0).val ∧ (i 0).val < win2_3.index ⟨8 * (i 0).val + 7, ht⟩ 0 * 1 + 1
    rw [h30]; dsimp only; omega
  | ⟨1, _⟩ =>
    show win2_3.index ⟨8 * (i 0).val + 7, ht⟩ 1 * 2048 ≤ (i 1).val ∧ (i 1).val < win2_3.index ⟨8 * (i 0).val + 7, ht⟩ 1 * 2048 + 2048
    rw [h31]; omega
  | ⟨2, _⟩ =>
    show win2_3.index ⟨8 * (i 0).val + 7, ht⟩ 2 * 1024 ≤ (i 2).val ∧ (i 2).val < win2_3.index ⟨8 * (i 0).val + 7, ht⟩ 2 * 1024 + 1024
    rw [h32]; omega

/-- Region 2 (softmax over the keys fused with the value product, accumulated over the query tiles): after the run its
    output array holds `Spec.outB` of the arrays it was entered with. -/
theorem arr2 (c : Dev nD) : (dat2 (F := Ideal) V c).arrAt 3 cfg2.N = Spec.outB (V c main_v11) (V c main_v13) (V c main_v0) :=
  (dat2 (F := Ideal) V c).arrAt_eq_of_cover 3 _ (fun t hf => flushed_eq V c t hf) cover

end Cert.KernelIdeal.Val

end
-- ==== Proof.Reg3.lean ====
/-
  Region 3: the attention of the B-side queries over the A-side keys, and the closing layer, from blocks to arrays.

  A grid point (b, mi) of the 8 × 8 grid loads rows 256·mi … 256·mi + 255 of batch b of the query array and of the
  array read as out_b, the whole of batch b of the key and value arrays, the two closing weights and the bias row. It forms
  the scores s[p, l] = Σ_h q[p, h] · k[l, h], takes each row's maximum from -∞ and the row's sum of exp (s − max), divides:
  that is the stabilised softmax of the row; the weights times the value rows give the tile of the first output,
  out_a[p, d] = Σ_l softmax(s[p, ·])(l) · v[l, d]. The second output's tile is (out_a·Wabᵀ + bab) + out_b·Wbaᵀ. Changes of
  float format are the identity on the extended reals, a product into a zero accumulator is the plain sum over the contracted axis.

  First each operation of the body is read at an index given by its coordinates; then each loaded block is read off its
  array where the output tile's rectangle says (the index maps related once over the grid); then what a point writes back is
  its block of ONE function of the arrays, `Spec.outA` and `Spec.comb` over it; the 64 tiles cover the two arrays (index (b, m, d)
  lies in the tile of the point (b, m / 256)), so the arrays after the region are those functions.
-/
import proofs.«430376_j52939766890718_3_alg».proof.Proof.Gen.KernelIdeal.Frame
import proofs.«430376_j52939766890718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with: a parameter
variable (V : (c : Dev nD) → (b : Ref sig .tc) → Buf (Elt Ideal) ((c : Thread nD τ).loc b))

namespace R3

/-! ## Layout: a vector made a column, and a column spread over the lanes -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a 256 × 2048 block, row by row -/

/-- Row `p` with lane `l` put back is the index `(p, l)`. -/
theorem lift_row (h : S256x2048.Reduces [1] S256) (p : Fin 256) (l : Fin 2048) : h.lift (ix1 p) l = ix2 p l := by
  funext a; apply Fin.ext
  match a with
  | ⟨0, _⟩ => rfl
  | ⟨1, _⟩ => rfl

/-- The row maximum from -∞ is the fold of `max` over the row. -/
theorem rowMax_apply (src : FVec Ideal S256x2048 .f32) (h : S256x2048.Reduces [1] S256) (hφ : FKind.Formats .f32)
    (hacc : (0xFF800000#32 : BitVec 32) = FKind.maximumf.neutral .f32 hφ) (p : Fin 256) :
    multiReduction .maximumf [1] S256 src 0xFF800000#32 h hφ hacc (ix1 p) = Spec.rowMax (fun l : Fin 2048 => src (ix2 p l)) := by
  refine (Ideal.multiReduction_maximumf_single src 0xFF800000#32 h hφ hacc (ix1 p)).trans ?_
  show Finset.fold max Spec.negInf (fun l : Fin 2048 => src (h.lift (ix1 p) l)) Finset.univ
    = Finset.fold max Spec.negInf (fun l : Fin 2048 => src (ix2 p l)) Finset.univ
  simp only [lift_row]

/-- The row sum is the sum over the row. -/
theorem rowSum_apply (src : FVec Ideal S256x2048 .f32) (h : S256x2048.Reduces [1] S256) (hφ : FKind.Formats .f32)
    (hacc : (0x00000000#32 : BitVec 32) = FKind.add.neutral .f32 hφ) (p : Fin 256) :
    multiReduction .add [1] S256 src 0x00000000#32 h hφ hacc (ix1 p) = ∑ l : Fin 2048, src (ix2 p l) := by
  refine (Ideal.multiReduction_add_single src 0x00000000#32 h hφ hacc (ix1 p)).trans ?_
  exact Finset.sum_congr rfl fun l _ => congrArg src (lift_row h p l)

/-! ## The three matrix products, each into a zero accumulator -/

theorem lhs_s_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_s_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_s_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_s_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The score product at `(p, l)`: the sum over the feature axis of row `p` of the left operand times column `l` of the right. -/
theorem matmul_s_apply {φ₁ φ₂ : FTy} (lhs : FVec Ideal S256x1024 φ₁) (rhs : FVec Ideal S1024x2048 φ₂) (p : Fin 256) (l : Fin 2048) :
    matmul dot_S256x1024_S1024x2048_S256x2048_1_0_0_1_n_n none lhs rhs (constant (F := Ideal) S256x2048 .f32 0x00000000#32) (ix2 p l)
      = ∑ h : Fin 1024, lhs (ix2 p h) * rhs (ix2 h l) := by
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p l) ((ValueIdx.contrEquiv1 dot_S256x1024_S1024x2048_S256x2048_1_0_0_1_n_n 1024 rfl rfl).symm k) = ix2 p k := funext fun a => Fin.ext (by
    match a with
    | ⟨0, _⟩ => exact lhs_s_0 _ _
    | ⟨1, _⟩ => exact (lhs_s_1 _ _).trans hk)
  have er : dot_S256x1024_S1024x2048_S256x2048_1_0_0_1_n_n.rhsIdx (ix2 p l) ((ValueIdx.contrEquiv1 dot_S256x1024_S1024x2048_S256x2048_1_0_0_1_n_n 1024 rfl rfl).symm k) = ix2 k l := funext fun a => Fin.ext (by
    match a with
    | ⟨0, _⟩ => exact (rhs_s_0 _ _).trans hk
    | ⟨1, _⟩ => exact rhs_s_1 _ _)
  rw [el, er]

theorem lhs_o_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_o_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_o_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_o_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The weighted sum of value rows at `(p, d)`: the sum over the 2048 positions of the weight at `(p, l)` times the value at `(l, d)`. -/
theorem matmul_o_apply {φ₁ φ₂ : FTy} (lhs : FVec Ideal S256x2048 φ₁) (rhs : FVec Ideal S2048x1024 φ₂) (p : Fin 256) (d : Fin 1024) :
    matmul dot_S256x2048_S2048x1024_S256x1024_1_0_0_1_n_n none lhs rhs (constant (F := Ideal) S256x1024 .f32 0x00000000#32) (ix2 p d)
      = ∑ l : Fin 2048, lhs (ix2 p l) * rhs (ix2 l d) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p d) ((ValueIdx.contrEquiv1 dot_S256x2048_S2048x1024_S256x1024_1_0_0_1_n_n 2048 rfl rfl).symm k) = ix2 p k := funext fun a => Fin.ext (by
    match a with
    | ⟨0, _⟩ => exact lhs_o_0 _ _
    | ⟨1, _⟩ => exact (lhs_o_1 _ _).trans hk)
  have er : dot_S256x2048_S2048x1024_S256x1024_1_0_0_1_n_n.rhsIdx (ix2 p d) ((ValueIdx.contrEquiv1 dot_S256x2048_S2048x1024_S256x1024_1_0_0_1_n_n 2048 rfl rfl).symm k) = ix2 k d := funext fun a => Fin.ext (by
    match a with
    | ⟨0, _⟩ => exact (rhs_o_0 _ _).trans hk
    | ⟨1, _⟩ => exact rhs_o_1 _ _)
  rw [el, er]

theorem lhs_w_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_w_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_w_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_w_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A closing-layer product at `(p, d)`: the sum over the feature axis of the left operand's row `p` times the right operand's column `d`. -/
theorem matmul_w_apply {φ₁ φ₂ : FTy} (lhs : FVec Ideal S256x1024 φ₁) (rhs : FVec Ideal S1024x1024 φ₂) (p : Fin 256) (d : Fin 1024) :
    matmul dot_S256x1024_S1024x1024_S256x1024_1_0_0_1_n_n none lhs rhs (constant (F := Ideal) S256x1024 .f32 0x00000000#32) (ix2 p d)
      = ∑ h : Fin 1024, lhs (ix2 p h) * rhs (ix2 h d) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p d) ((ValueIdx.contrEquiv1 dot_S256x1024_S1024x1024_S256x1024_1_0_0_1_n_n 1024 rfl rfl).symm k) = ix2 p k := funext fun a => Fin.ext (by
    match a with
    | ⟨0, _⟩ => exact lhs_w_0 _ _
    | ⟨1, _⟩ => exact (lhs_w_1 _ _).trans hk)
  have er : dot_S256x1024_S1024x1024_S256x1024_1_0_0_1_n_n.rhsIdx (ix2 p d) ((ValueIdx.contrEquiv1 dot_S256x1024_S1024x1024_S256x1024_1_0_0_1_n_n 1024 rfl rfl).symm k) = ix2 k d := funext fun a => Fin.ext (by
    match a with
    | ⟨0, _⟩ => exact (rhs_w_0 _ _).trans hk
    | ⟨1, _⟩ => exact rhs_w_1 _ _)
  rw [el, er]

/-! ## The attention row -/

/-- The exponential at an index, at the ideal values. -/
theorem exp_apply {s : Shape} {φ : FTy} (a : FVec Ideal s φ) (i : s.Idx) : exp a i = Ideal.exp (a i) := rfl

/-- The scores `q·kᵀ` of a query tile against the whole key block, at `(p, l)`: the feature dot product of query row `p` and key row `l`. -/
theorem scores_apply (v0 : FVec Ideal S1x256x1024 .bf16) (v2 : FVec Ideal S1x2048x1024 .bf16)
    (h1 : S1x256x1024.ShapeCasts S256x1024) (h3 : S1x2048x1024.ShapeCasts S2048x1024) (ht : S2048x1024.Transposes [1, 0] S1024x2048)
    (p : Fin 256) (l : Fin 2048) :
    matmul dot_S256x1024_S1024x2048_S256x2048_1_0_0_1_n_n none (shapeCast S256x1024 v0 h1)
        (transpose S1024x2048 [1, 0] (shapeCast S2048x1024 v2 h3) ht) (constant (F := Ideal) S256x2048 .f32 0x00000000#32) (ix2 p l)
      = ∑ h : Fin 1024, v0 (ix3 0 p h) * v2 (ix3 0 l h) := by
  refine (matmul_s_apply _ _ p l).trans (Finset.sum_congr rfl fun h _ => ?_)
  rw [shapeCast_1ab_ab_apply, transpose_ix2_apply, shapeCast_1ab_ab_apply]

/-- The row maximum, made a column and spread over the lanes, reads the row's maximum at every lane. -/
theorem colMax_apply (s : FVec Ideal S256x2048 .f32) (hr : S256x2048.Reduces [1] S256) (hc : S256.ShapeCasts S256x1)
    (hb : S256x1.Broadcasts S256x2048) (hφ : FKind.Formats .f32) (hm : (0xFF800000#32 : BitVec 32) = FKind.maximumf.neutral .f32 hφ)
    (p : Fin 256) (l : Fin 2048) :
    broadcastTo S256x2048 (shapeCast S256x1 (multiReduction .maximumf [1] S256 s 0xFF800000#32 hr hφ hm) hc) hb (ix2 p l)
      = Spec.rowMax (fun l' : Fin 2048 => s (ix2 p l')) :=
  (broadcastTo_a1_ab_apply _ hb p l).trans ((shapeCast_a_a1_apply _ hc p 0).trans (rowMax_apply s hr hφ hm p))

/-- The row sum, made a column and spread over the lanes, reads the row's sum at every lane. -/
theorem colSum_apply (e : FVec Ideal S256x2048 .f32) (hr : S256x2048.Reduces [1] S256) (hc : S256.ShapeCasts S256x1)
    (hb : S256x1.Broadcasts S256x2048) (hφ : FKind.Formats .f32) (hz : (0x00000000#32 : BitVec 32) = FKind.add.neutral .f32 hφ)
    (p : Fin 256) (l : Fin 2048) :
    broadcastTo S256x2048 (shapeCast S256x1 (multiReduction .add [1] S256 e 0x00000000#32 hr hφ hz) hc) hb (ix2 p l)
      = ∑ l' : Fin 2048, e (ix2 p l') :=
  (broadcastTo_a1_ab_apply _ hb p l).trans ((shapeCast_a_a1_apply _ hc p 0).trans (rowSum_apply e hr hφ hz p))

/-- The pointwise part of the attention weights: the exponential of the score less `M`, divided by `Z`; the change of format is the identity. -/
theorem attn_core (s M Z : FVec Ideal S256x2048 .f32) (hbits : FTy.bits .bf16 < FTy.bits .f32) (p : Fin 256) (l : Fin 2048) :
    truncf .bf16 (divf (exp (subf s M)) Z) hbits (ix2 p l) = Ideal.div (Ideal.exp (s (ix2 p l) - M (ix2 p l))) (Z (ix2 p l)) := rfl

/-- The normalised exponentials of a block of scores are, row by row, the stabilised softmax of the row. -/
theorem attn_apply (s : FVec Ideal S256x2048 .f32) (hr : S256x2048.Reduces [1] S256) (hc : S256.ShapeCasts S256x1)
    (hb : S256x1.Broadcasts S256x2048) (hφ : FKind.Formats .f32) (hm : (0xFF800000#32 : BitVec 32) = FKind.maximumf.neutral .f32 hφ)
    (hz : (0x00000000#32 : BitVec 32) = FKind.add.neutral .f32 hφ) (hbits : FTy.bits .bf16 < FTy.bits .f32)
    (p : Fin 256) (l : Fin 2048) :
    truncf .bf16 (divf
        (exp (subf s (broadcastTo S256x2048 (shapeCast S256x1 (multiReduction .maximumf [1] S256 s 0xFF800000#32 hr hφ hm) hc) hb)))
        (broadcastTo S256x2048 (shapeCast S256x1 (multiReduction .add [1] S256
          (exp (subf s (broadcastTo S256x2048 (shapeCast S256x1 (multiReduction .maximumf [1] S256 s 0xFF800000#32 hr hφ hm) hc) hb)))
          0x00000000#32 hr hφ hz) hc) hb)) hbits (ix2 p l)
      = Spec.softmax (fun l' : Fin 2048 => s (ix2 p l')) l := by
  refine (attn_core s _ _ hbits p l).trans ?_
  unfold Spec.softmax
  refine congrArg₂ Ideal.div ?_ ?_
  · exact congrArg (fun m => Ideal.exp (s (ix2 p l) - m)) (colMax_apply s hr hc hb hφ hm p l)
  · refine (colSum_apply _ hr hc hb hφ hz p l).trans (Finset.sum_congr rfl fun l' _ => ?_)
    exact congrArg (fun m => Ideal.exp (s (ix2 p l') - m)) (colMax_apply s hr hc hb hφ hm p l')

/-- THE FIRST OUTPUT'S TILE at `(p, d)`: the softmax of query row `p`'s scores against every key row, weighting the value rows. -/
theorem k3_pay2_apply (v0 : FVec Ideal S1x256x1024 .bf16) (v2 : FVec Ideal S1x2048x1024 .bf16) (v16 : FVec Ideal S1x2048x1024 .bf16)
    (p : Fin 256) (d : Fin 1024) :
    k3_pay2 (F := Ideal) v0 v2 v16 (ix2 p d)
      = ∑ l : Fin 2048, Spec.softmax (fun l' : Fin 2048 => ∑ h : Fin 1024, v0 (ix3 0 p h) * v2 (ix3 0 l' h)) l * v16 (ix3 0 l d) := by
  unfold k3_pay2
  refine (matmul_o_apply _ _ p d).trans (Finset.sum_congr rfl fun l _ => ?_)
  refine congrArg₂ (· * ·) ?_ ?_
  · exact (attn_apply _ _ _ _ _ _ _ _ p l).trans
      (congrArg (fun f => Spec.softmax f l) (funext fun l' => scores_apply v0 v2 _ _ _ p l'))
  · exact shapeCast_1ab_ab_apply v16 _ l d

/-! ## The two stored tiles -/

/-- The first output's tile as stored, with its leading unit axis. -/
theorem k3_pay3_apply (v0 : FVec Ideal S1x256x1024 .bf16) (v2 : FVec Ideal S1x2048x1024 .bf16) (v16 : FVec Ideal S1x2048x1024 .bf16)
    (u : Fin 1) (p : Fin 256) (d : Fin 1024) :
    k3_pay3 (F := Ideal) v0 v2 v16 (ix3 u p d) = k3_pay2 (F := Ideal) v0 v2 v16 (ix2 p d) := by
  unfold k3_pay3
  exact shapeCast_ab_1ab_apply _ _ u p d

/-- The first output's tile through the first closing weight, transposed: at `(p, d)` the sum over the feature axis. -/
theorem k3_pay6_apply (v0 : FVec Ideal S1x256x1024 .bf16) (v2 : FVec Ideal S1x2048x1024 .bf16) (v16 : FVec Ideal S1x2048x1024 .bf16)
    (v26 : FVec Ideal S1024x1024 .bf16) (p : Fin 256) (d : Fin 1024) :
    k3_pay6 (F := Ideal) v0 v2 v16 v26 (ix2 p d) = ∑ h : Fin 1024, k3_pay2 (F := Ideal) v0 v2 v16 (ix2 p h) * v26 (ix2 d h) := by
  unfold k3_pay6
  refine (matmul_w_apply _ _ p d).trans (Finset.sum_congr rfl fun h _ => ?_)
  refine congrArg (k3_pay2 (F := Ideal) v0 v2 v16 (ix2 p h) * ·) ?_
  exact (transpose_ix2_apply _ _ h d).trans (congrFun (shapeCast_self v26 _) _)

/-- The closing sum: the first product plus the bias row, plus the second tile through the second closing weight, transposed. -/
theorem k3_pay1_apply (v25 : FVec Ideal S256x1024 .bf16) (v29 : FVec Ideal S1024x1024 .bf16) (v31 : FVec Ideal S256x1024 .f32)
    (v32 : FVec Ideal S1x1024 .f32) (u : Fin 1) (p : Fin 256) (d : Fin 1024) :
    k3_pay1 (F := Ideal) v25 v29 v31 v32 (ix3 u p d)
      = (v31 (ix2 p d) + v32 (ix2 (0 : Fin 1) d)) + ∑ h : Fin 1024, v25 (ix2 p h) * v29 (ix2 d h) := by
  unfold k3_pay1
  refine (shapeCast_ab_1ab_apply _ _ u p d).trans ?_
  refine (addf_apply _ _ _).trans ?_
  refine congrArg₂ (· + ·) ((addf_apply _ _ _).trans (congrArg (v31 (ix2 p d) + ·) ?_)) ?_
  · exact (broadcastTo_1b_ab_apply _ _ p d).trans (congrFun (shapeCast_self v32 _) _)
  · refine (matmul_w_apply _ _ p d).trans (Finset.sum_congr rfl fun h _ => ?_)
    exact congrArg (v25 (ix2 p h) * ·) (transpose_ix2_apply v29 _ h d)

/-- THE SECOND OUTPUT'S TILE at `(u, p, d)`, from the blocks the body loads. -/
theorem outab_apply (x0 : FVec Ideal S1x256x1024 .bf16) (x1 : FVec Ideal S1x2048x1024 .bf16) (x2 : FVec Ideal S1x2048x1024 .bf16)
    (x3 : FVec Ideal S1x256x1024 .f32) (x4 : FVec Ideal S1024x1024 .bf16) (x5 : FVec Ideal S1x1024 .f32) (x6 : FVec Ideal S1024x1024 .bf16)
    (u : Fin 1) (p : Fin 256) (d : Fin 1024) :
    k3_pay1 (F := Ideal) (k3_pay4 x3) (k3_pay5 x6) (k3_pay6 x0 x1 x2 x4) x5 (ix3 u p d)
      = ((∑ h : Fin 1024, k3_pay2 (F := Ideal) x0 x1 x2 (ix2 p h) * x4 (ix2 d h)) + x5 (ix2 (0 : Fin 1) d))
        + ∑ h : Fin 1024, x3 (ix3 (0 : Fin 1) p h) * x6 (ix2 d h) := by
  refine (k3_pay1_apply _ _ _ _ u p d).trans ?_
  refine congrArg₂ (· + ·) (congrArg (· + x5 (ix2 (0 : Fin 1) d)) (k3_pay6_apply x0 x1 x2 x4 p d)) (Finset.sum_congr rfl fun h _ => ?_)
  refine congrArg₂ (· * ·) ?_ ?_
  · unfold k3_pay4; exact shapeCast_1ab_ab_apply x3 _ p h
  · unfold k3_pay5; exact congrFun (shapeCast_self x6 _) _

/-! ## Where the blocks of a grid point lie -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 8 × 8 grid: the query tile, the second tile and the second output move with the
    first output's tile; the key and value blocks follow its batch only; the weights and the bias stay. -/
theorem idx_facts3 : ∀ t : Fin cfg3.N,
    win3_0.index t (0 : Fin 3) = win3_7.index t (0 : Fin 3) ∧ win3_0.index t (1 : Fin 3) = win3_7.index t (1 : Fin 3) ∧ win3_0.index t (2 : Fin 3) = 0
    ∧ win3_1.index t (0 : Fin 3) = win3_7.index t (0 : Fin 3) ∧ win3_1.index t (1 : Fin 3) = 0 ∧ win3_1.index t (2 : Fin 3) = 0
    ∧ win3_2.index t (0 : Fin 3) = win3_7.index t (0 : Fin 3) ∧ win3_2.index t (1 : Fin 3) = 0 ∧ win3_2.index t (2 : Fin 3) = 0
    ∧ win3_3.index t (0 : Fin 3) = win3_7.index t (0 : Fin 3) ∧ win3_3.index t (1 : Fin 3) = win3_7.index t (1 : Fin 3) ∧ win3_3.index t (2 : Fin 3) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_8.index t (0 : Fin 3) = win3_7.index t (0 : Fin 3) ∧ win3_8.index t (1 : Fin 3) = win3_7.index t (1 : Fin 3) ∧ win3_8.index t (2 : Fin 3) = 0
    ∧ win3_7.index t (0 : Fin 3) ≤ 7 ∧ win3_7.index t (1 : Fin 3) ≤ 7 ∧ win3_7.index t (2 : Fin 3) = 0 :=
  (by decide +kernel : ∀ t : Fin grid3.N, _)

/-- Every (batch, row tile) pair is some point's. -/
theorem idx_onto3 : ∀ (q0 : Fin 8) (q1 : Fin 8), ∃ t : Fin cfg3.N, win3_7.index t = ![q0.val, q1.val, 0] :=
  (by decide +kernel : ∀ (q0 : Fin 8) (q1 : Fin 8), ∃ t : Fin grid3.N, win3_7.index t = ![q0.val, q1.val, 0])

/-- The batch a point works on. -/
def bt (t : Fin cfg3.N) : Fin 8 := ⟨win3_7.index t (0 : Fin 3), by have := (idx_facts3 t).2.2.2.2.2.2.2.2.2.2.2.2.2.2.2.2.2.2.2.2.2.1; omega⟩

/-- The row of the sequence that row `p` of a point's tile is. -/
def rowt (t : Fin cfg3.N) (p : Fin 256) : Fin 2048 :=
  ⟨win3_7.index t (1 : Fin 3) * 256 + p.val, by have := (idx_facts3 t).2.2.2.2.2.2.2.2.2.2.2.2.2.2.2.2.2.2.2.2.2.2.1; have := p.isLt; omega⟩

theorem bt_val (t : Fin cfg3.N) : (bt t).val = win3_7.index t (0 : Fin 3) := rfl
theorem rowt_val (t : Fin cfg3.N) (p : Fin 256) : (rowt t p).val = win3_7.index t (1 : Fin 3) * 256 + p.val := rfl

/-! ## The blocks a point loads, at their literal types, read off the arrays -/

/-- The query tile, the key and value blocks, the second tile, the two weights and the bias row at point `t`. -/
abbrev qblk (c : Dev nD) (t : Fin cfg3.N) : FVec Ideal S1x256x1024 .bf16 := iblk3 (F := Ideal) V c 0 t
abbrev kblk (c : Dev nD) (t : Fin cfg3.N) : FVec Ideal S1x2048x1024 .bf16 := iblk3 (F := Ideal) V c 1 t
abbrev vblk (c : Dev nD) (t : Fin cfg3.N) : FVec Ideal S1x2048x1024 .bf16 := iblk3 (F := Ideal) V c 2 t
abbrev oblk (c : Dev nD) (t : Fin cfg3.N) : FVec Ideal S1x256x1024 .f32 := iblk3 (F := Ideal) V c 3 t
abbrev wabblk (c : Dev nD) (t : Fin cfg3.N) : FVec Ideal S1024x1024 .bf16 := iblk3 (F := Ideal) V c 4 t
abbrev biasblk (c : Dev nD) (t : Fin cfg3.N) : FVec Ideal S1x1024 .f32 := iblk3 (F := Ideal) V c 5 t
abbrev wbablk (c : Dev nD) (t : Fin cfg3.N) : FVec Ideal S1024x1024 .bf16 := iblk3 (F := Ideal) V c 6 t

/-- The query tile is rows `256·mi …` of batch `b` of the query array. -/
theorem read_q (c : Dev nD) (t : Fin cfg3.N) (u : Fin 1) (p : Fin 256) (h : Fin 1024) :
    qblk V c t (ix3 u p h) = V c main_v13 (ix3 (bt t) (rowt t p) h) := by
  obtain ⟨e0, e1, e2, -⟩ := idx_facts3 t
  show V c main_v13 (((cfg3.win 0).blk t).view.emb (ix3 u p h)) = V c main_v13 _
  refine congrArg (V c main_v13) (funext fun a => Fin.ext ?_)
  have hu : u.val = 0 := by omega
  match a with
  | ⟨0, _⟩ => show win3_0.index t (0 : Fin 3) * 1 + 1 * u.val = win3_7.index t (0 : Fin 3); omega
  | ⟨1, _⟩ => show win3_0.index t (1 : Fin 3) * 256 + 1 * p.val = win3_7.index t (1 : Fin 3) * 256 + p.val; omega
  | ⟨2, _⟩ => show win3_0.index t (2 : Fin 3) * 1024 + 1 * h.val = h.val; omega

/-- The key block is the whole of batch `b` of the key array. -/
theorem read_k (c : Dev nD) (t : Fin cfg3.N) (u : Fin 1) (l : Fin 2048) (h : Fin 1024) :
    kblk V c t (ix3 u l h) = V c main_v11 (ix3 (bt t) l h) := by
  obtain ⟨-, -, -, e0, e1, e2, -⟩ := idx_facts3 t
  show V c main_v11 (((cfg3.win 1).blk t).view.emb (ix3 u l h)) = V c main_v11 _
  refine congrArg (V c main_v11) (funext fun a => Fin.ext ?_)
  have hu : u.val = 0 := by omega
  match a with
  | ⟨0, _⟩ => show win3_1.index t (0 : Fin 3) * 1 + 1 * u.val = win3_7.index t (0 : Fin 3); omega
  | ⟨1, _⟩ => show win3_1.index t (1 : Fin 3) * 2048 + 1 * l.val = l.val; omega
  | ⟨2, _⟩ => show win3_1.index t (2 : Fin 3) * 1024 + 1 * h.val = h.val; omega

/-- The value block is the whole of batch `b` of the value array. -/
theorem read_v (c : Dev nD) (t : Fin cfg3.N) (u : Fin 1) (l : Fin 2048) (d : Fin 1024) :
    vblk V c t (ix3 u l d) = V c main_v1 (ix3 (bt t) l d) := by
  obtain ⟨-, -, -, -, -, -, e0, e1, e2, -⟩ := idx_facts3 t
  show V c main_v1 (((cfg3.win 2).blk t).view.emb (ix3 u l d)) = V c main_v1 _
  refine congrArg (V c main_v1) (funext fun a => Fin.ext ?_)
  have hu : u.val = 0 := by omega
  match a with
  | ⟨0, _⟩ => show win3_2.index t (0 : Fin 3) * 1 + 1 * u.val = win3_7.index t (0 : Fin 3); omega
  | ⟨1, _⟩ => show win3_2.index t (1 : Fin 3) * 2048 + 1 * l.val = l.val; omega
  | ⟨2, _⟩ => show win3_2.index t (2 : Fin 3) * 1024 + 1 * d.val = d.val; omega

/-- The second tile is rows `256·mi …` of batch `b` of the array the region reads as `out_b`. -/
theorem read_o (c : Dev nD) (t : Fin cfg3.N) (u : Fin 1) (p : Fin 256) (h : Fin 1024) :
    oblk V c t (ix3 u p h) = V c main_v14 (ix3 (bt t) (rowt t p) h) := by
  obtain ⟨-, -, -, -, -, -, -, -, -, e0, e1, e2, -⟩ := idx_facts3 t
  show V c main_v14 (((cfg3.win 3).blk t).view.emb (ix3 u p h)) = V c main_v14 _
  refine congrArg (V c main_v14) (funext fun a => Fin.ext ?_)
  have hu : u.val = 0 := by omega
  match a with
  | ⟨0, _⟩ => show win3_3.index t (0 : Fin 3) * 1 + 1 * u.val = win3_7.index t (0 : Fin 3); omega
  | ⟨1, _⟩ => show win3_3.index t (1 : Fin 3) * 256 + 1 * p.val = win3_7.index t (1 : Fin 3) * 256 + p.val; omega
  | ⟨2, _⟩ => show win3_3.index t (2 : Fin 3) * 1024 + 1 * h.val = h.val; omega

/-- The first closing weight is loaded whole. -/
theorem read_wab (c : Dev nD) (t : Fin cfg3.N) (d : Fin 1024) (h : Fin 1024) :
    wabblk V c t (ix2 d h) = V c main_v4 (ix2 d h) := by
  obtain ⟨-, -, -, -, -, -, -, -, -, -, -, -, e0, e1, -⟩ := idx_facts3 t
  show V c main_v4 (((cfg3.win 4).blk t).view.emb (ix2 d h)) = V c main_v4 _
  refine congrArg (V c main_v4) (funext fun a => Fin.ext ?_)
  match a with
  | ⟨0, _⟩ => show win3_4.index t (0 : Fin 2) * 1024 + 1 * d.val = d.val; omega
  | ⟨1, _⟩ => show win3_4.index t (1 : Fin 2) * 1024 + 1 * h.val = h.val; omega

/-- The bias row is loaded whole. -/
theorem read_bias (c : Dev nD) (t : Fin cfg3.N) (u : Fin 1) (d : Fin 1024) :
    biasblk V c t (ix2 u d) = V c main_v15 (ix2 (0 : Fin 1) d) := by
  obtain ⟨-, -, -, -, -, -, -, -, -, -, -, -, -, -, e0, e1, -⟩ := idx_facts3 t
  show V c main_v15 (((cfg3.win 5).blk t).view.emb (ix2 u d)) = V c main_v15 _
  refine congrArg (V c main_v15) (funext fun a => Fin.ext ?_)
  have hu : u.val = 0 := by omega
  match a with
  | ⟨0, _⟩ => show win3_5.index t (0 : Fin 2) * 1 + 1 * u.val = 0; omega
  | ⟨1, _⟩ => show win3_5.index t (1 : Fin 2) * 1024 + 1 * d.val = d.val; omega

/-- The second closing weight is loaded whole. -/
theorem read_wba (c : Dev nD) (t : Fin cfg3.N) (d : Fin 1024) (h : Fin 1024) :
    wbablk V c t (ix2 d h) = V c main_v5 (ix2 d h) := by
  obtain ⟨-, -, -, -, -, -, -, -, -, -, -, -, -, -, -, -, e0, e1, -⟩ := idx_facts3 t
  show V c main_v5 (((cfg3.win 6).blk t).view.emb (ix2 d h)) = V c main_v5 _
  refine congrArg (V c main_v5) (funext fun a => Fin.ext ?_)
  match a with
  | ⟨0, _⟩ => show win3_6.index t (0 : Fin 2) * 1024 + 1 * d.val = d.val; omega
  | ⟨1, _⟩ => show win3_6.index t (1 : Fin 2) * 1024 + 1 * h.val = h.val; omega

/-- THE TILE OF THE FIRST OUTPUT a point computes is the rows `256·mi …` of batch `b` of `Spec.outA` of the arrays. -/
theorem tile_outA (c : Dev nD) (t : Fin cfg3.N) (p : Fin 256) (d : Fin 1024) :
    k3_pay2 (F := Ideal) (qblk V c t) (kblk V c t) (vblk V c t) (ix2 p d)
      = Spec.outA (V c main_v13) (V c main_v11) (V c main_v1) (ix3 (bt t) (rowt t p) d) := by
  refine (k3_pay2_apply (qblk V c t) (kblk V c t) (vblk V c t) p d).trans ?_
  show ∑ l : Fin 2048, Spec.softmax (fun l' : Fin 2048 => ∑ h : Fin 1024, qblk V c t (ix3 0 p h) * kblk V c t (ix3 0 l' h)) l * vblk V c t (ix3 0 l d)
    = ∑ l : Fin 2048, Spec.softmax (fun l' : Fin 2048 => Spec.dotH (V c main_v13) (V c main_v11) (bt t) (rowt t p) l') l * V c main_v1 (ix3 (bt t) l d)
  simp only [read_q, read_k, read_v, Spec.dotH]

/-! ## What a point writes back -/

/-- Two functions on a rank-3 index set agree when they agree at every triple of coordinates. -/
theorem funext_ix3 {α : Type} {n0 n1 n2 : ℕ} {f g : (⟨3, ![n0, n1, n2]⟩ : Shape).Idx → α}
    (h : ∀ (a : Fin n0) (b : Fin n1) (c : Fin n2), f (ix3 a b c) = g (ix3 a b c)) : f = g :=
  funext fun j => by rw [eq_ix3 j]; exact h _ _ _

/-- The first output's block at point `t` holds rows `256·mi …` of batch `b` of the array. -/
theorem read_out7 (G : Spec.T3) (t : Fin cfg3.N) (u : Fin 1) (p : Fin 256) (d : Fin 1024) :
    ((cfg3.win 7).blk t).view.read (Elt Ideal) G (ix3 u p d) = G (ix3 (bt t) (rowt t p) d) := by
  obtain ⟨-, -, -, -, -, -, -, -, -, -, -, -, -, -, -, -, -, -, -, -, -, -, -, e2⟩ := idx_facts3 t
  show G (((cfg3.win 7).blk t).view.emb (ix3 u p d)) = G _
  refine congrArg G (funext fun a => Fin.ext ?_)
  have hu : u.val = 0 := by omega
  match a with
  | ⟨0, _⟩ => show win3_7.index t (0 : Fin 3) * 1 + 1 * u.val = win3_7.index t (0 : Fin 3); omega
  | ⟨1, _⟩ => show win3_7.index t (1 : Fin 3) * 256 + 1 * p.val = win3_7.index t (1 : Fin 3) * 256 + p.val; omega
  | ⟨2, _⟩ => show win3_7.index t (2 : Fin 3) * 1024 + 1 * d.val = d.val; omega

/-- The second output's block lies over the same rows. -/
theorem read_out8 (G : Spec.T3) (t : Fin cfg3.N) (u : Fin 1) (p : Fin 256) (d : Fin 1024) :
    ((cfg3.win 8).blk t).view.read (Elt Ideal) G (ix3 u p d) = G (ix3 (bt t) (rowt t p) d) := by
  obtain ⟨-, -, -, -, -, -, -, -, -, -, -, -, -, -, -, -, -, -, e0, e1, e2, -⟩ := idx_facts3 t
  show G (((cfg3.win 8).blk t).view.emb (ix3 u p d)) = G _
  refine congrArg G (funext fun a => Fin.ext ?_)
  have hu : u.val = 0 := by omega
  match a with
  | ⟨0, _⟩ => show win3_8.index t (0 : Fin 3) * 1 + 1 * u.val = win3_7.index t (0 : Fin 3); omega
  | ⟨1, _⟩ => show win3_8.index t (1 : Fin 3) * 256 + 1 * p.val = win3_7.index t (1 : Fin 3) * 256 + p.val; omega
  | ⟨2, _⟩ => show win3_8.index t (2 : Fin 3) * 1024 + 1 * d.val = d.val; omega

/-- WHAT POINT `t` WRITES BACK to the first output is its block of `Spec.outA` of the arrays the region was entered with. -/
theorem flushed7_eq (c : Dev nD) (t : Fin cfg3.N) :
    (dat3 (F := Ideal) V c).flushed 7 t
      = ((cfg3.win 7).blk t).view.read (Elt Ideal) (Spec.outA (V c main_v13) (V c main_v11) (V c main_v1)) := by
  show (cfg3.win 7).cut (grid3.coords t) ((dat3 (F := Ideal) V c).after 7 t) = _
  rw [after3_7]
  unfold out3_7
  rw [View.canon_unit_zero hz3]
  simp only [View.ld_unit_zero (S := S1x256x1024) hz3, View.ld_unit_zero (S := S1x2048x1024) hz3]
  refine funext_ix3 (n0 := 1) (n1 := 256) (n2 := 1024) fun u p d => ?_
  refine (k3_pay3_apply (qblk V c t) (kblk V c t) (vblk V c t) u p d).trans ?_
  refine (tile_outA V c t p d).trans ?_
  exact (read_out7 _ t u p d).symm

/-- The closing layer at an index given by its coordinates. -/
theorem comb_ix3 (OA OB : Spec.T3) (Wab : Spec.M2) (bab : Spec.Row) (Wba : Spec.M2) (b : Fin 8) (m : Fin 2048) (d : Fin 1024) :
    Spec.comb OA OB Wab bab Wba (ix3 b m d)
      = ((∑ h : Fin 1024, OA (ix3 b m h) * Wab (ix2 d h)) + bab (ix2 (0 : Fin 1) d)) + ∑ h : Fin 1024, OB (ix3 b m h) * Wba (ix2 d h) := rfl

/-- WHAT POINT `t` WRITES BACK to the second output is its block of the closing layer over `Spec.outA` and the second array. -/
theorem flushed8_eq (c : Dev nD) (t : Fin cfg3.N) :
    (dat3 (F := Ideal) V c).flushed 8 t
      = ((cfg3.win 8).blk t).view.read (Elt Ideal)
          (Spec.comb (Spec.outA (V c main_v13) (V c main_v11) (V c main_v1)) (V c main_v14) (V c main_v4) (V c main_v15) (V c main_v5)) := by
  show (cfg3.win 8).cut (grid3.coords t) ((dat3 (F := Ideal) V c).after 8 t) = _
  rw [after3_8]
  unfold out3_8
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]
  refine funext_ix3 (n0 := 1) (n1 := 256) (n2 := 1024) fun u p d => ?_
  refine (outab_apply (qblk V c t) (kblk V c t) (vblk V c t) (oblk V c t) (wabblk V c t) (biasblk V c t) (wbablk V c t) u p d).trans ?_
  refine Eq.trans ?_ ((read_out8 _ t u p d).trans (comb_ix3 _ _ _ _ _ (bt t) (rowt t p) d)).symm
  simp only [tile_outA, read_wab, read_bias, read_o, read_wba]

/-! ## The blocks tile the arrays -/

/-- An index is in point `t`'s block of the first output iff each coordinate is in the block's range on its axis. -/
theorem mem_blk7 (t : Fin cfg3.N) (i : S8x2048x1024.Idx) :
    i ∈ ((cfg3.win 7).blk t).view.set ↔ ∀ a : Fin 3, win3_7.index t a * S1x256x1024.size a ≤ (i a).val ∧ (i a).val < win3_7.index t a * S1x256x1024.size a + S1x256x1024.size a := by
  show i ∈ ((View.whole main_v16_0).slice (win3_7.rect t)).set ↔ _
  rw [View.set_slice_whole, Rect.mem_set_unit]
  exact Iff.rfl

/-- The same for the second output. -/
theorem mem_blk8 (t : Fin cfg3.N) (i : S8x2048x1024.Idx) :
    i ∈ ((cfg3.win 8).blk t).view.set ↔ ∀ a : Fin 3, win3_8.index t a * S1x256x1024.size a ≤ (i a).val ∧ (i a).val < win3_8.index t a * S1x256x1024.size a + S1x256x1024.size a := by
  show i ∈ ((View.whole main_v16_1).slice (win3_8.rect t)).set ↔ _
  rw [View.set_slice_whole, Rect.mem_set_unit]
  exact Iff.rfl

/-- Index `(b, m, d)` of the first output is in the block of the point with coordinates `(b, m / 256)`. -/
theorem cover7 (i : S8x2048x1024.Idx) : ∃ t : Fin cfg3.N, (cfg3.win 7).flush t = true ∧ i ∈ ((cfg3.win 7).blk t).view.set := by
  have hi0 : (i 0).val < 8 := (i 0).isLt
  have hi1 : (i 1).val < 2048 := (i 1).isLt
  have hi2 : (i 2).val < 1024 := (i 2).isLt
  obtain ⟨t, ht⟩ := idx_onto3 ⟨(i 0).val, hi0⟩ ⟨(i 1).val / 256, by omega⟩
  have q0 : win3_7.index t (0 : Fin 3) = (i 0).val := congrFun ht 0
  have q1 : win3_7.index t (1 : Fin 3) = (i 1).val / 256 := congrFun ht 1
  have q2 : win3_7.index t (2 : Fin 3) = 0 := congrFun ht 2
  refine ⟨t, flush3_7 t, ?_⟩
  rw [mem_blk7]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 256 ≤ (i 1).val ∧ (i 1).val < win3_7.index t (1 : Fin 3) * 256 + 256; omega
  | ⟨2, _⟩ => show win3_7.index t (2 : Fin 3) * 1024 ≤ (i 2).val ∧ (i 2).val < win3_7.index t (2 : Fin 3) * 1024 + 1024; omega

/-- The second output's blocks lie as the first's, so the same point covers. -/
theorem cover8 (i : S8x2048x1024.Idx) : ∃ t : Fin cfg3.N, (cfg3.win 8).flush t = true ∧ i ∈ ((cfg3.win 8).blk t).view.set := by
  have hi0 : (i 0).val < 8 := (i 0).isLt
  have hi1 : (i 1).val < 2048 := (i 1).isLt
  have hi2 : (i 2).val < 1024 := (i 2).isLt
  obtain ⟨t, ht⟩ := idx_onto3 ⟨(i 0).val, hi0⟩ ⟨(i 1).val / 256, by omega⟩
  have q0 : win3_7.index t (0 : Fin 3) = (i 0).val := congrFun ht 0
  have q1 : win3_7.index t (1 : Fin 3) = (i 1).val / 256 := congrFun ht 1
  obtain ⟨-, -, -, -, -, -, -, -, -, -, -, -, -, -, -, -, -, -, e0, e1, e2, -⟩ := idx_facts3 t
  refine ⟨t, flush3_8 t, ?_⟩
  rw [mem_blk8]
  intro a
  match a with
  | ⟨0, _⟩ => show win3_8.index t (0 : Fin 3) * 1 ≤ (i 0).val ∧ (i 0).val < win3_8.index t (0 : Fin 3) * 1 + 1; omega
  | ⟨1, _⟩ => show win3_8.index t (1 : Fin 3) * 256 ≤ (i 1).val ∧ (i 1).val < win3_8.index t (1 : Fin 3) * 256 + 256; omega
  | ⟨2, _⟩ => show win3_8.index t (2 : Fin 3) * 1024 ≤ (i 2).val ∧ (i 2).val < win3_8.index t (2 : Fin 3) * 1024 + 1024; omega

end R3

/-! ## The two arrays after the region -/

/-- Region 3, first output: `Spec.outA` of the arrays the region was entered with. -/
theorem arr3_7 (c : Dev nD) : (dat3 (F := Ideal) V c).arrAt 7 cfg3.N = Spec.outA (V c main_v13) (V c main_v11) (V c main_v1) :=
  (dat3 (F := Ideal) V c).arrAt_eq_of_cover 7 _ (fun t _ => R3.flushed7_eq V c t) R3.cover7

/-- Region 3, second output: the closing layer over the first output and the array the region reads as `out_b`. -/
theorem arr3_8 (c : Dev nD) : (dat3 (F := Ideal) V c).arrAt 8 cfg3.N
    = Spec.comb (Spec.outA (V c main_v13) (V c main_v11) (V c main_v1)) (V c main_v14) (V c main_v4) (V c main_v15) (V c main_v5) :=
  (dat3 (F := Ideal) V c).arrAt_eq_of_cover 8 _ (fun t _ => R3.flushed8_eq V c t) R3.cover8

end Cert.KernelIdeal.Val

end
-- ==== Proof.Glue.lean ====
import proofs.«430376_j52939766890718_3_alg».proof.Proof.Gen.KernelIdeal.Frame
import proofs.«430376_j52939766890718_3_alg».proof.Proof.Spec
import proofs.«430376_j52939766890718_3_alg».proof.Proof.Reg0
import proofs.«430376_j52939766890718_3_alg».proof.Proof.Reg1
import proofs.«430376_j52939766890718_3_alg».proof.Proof.Reg2
import proofs.«430376_j52939766890718_3_alg».proof.Proof.Reg3
import Idealize.ShloMosaic.Lib.Pipeline.Value
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first projection as the program computes it: the linear layer on the flattened rows of `A`, folded back. -/
def kMA (c : Dev nD) : Spec.T3 :=
  shapeCast S8x2048x1024 (Spec.lin
    (shapeCast S16384x1024 (m ((c : Thread nD τ).loc main_arg0) : S8x2048x1024.Idx → EReal) shapeCasts_S8x2048x1024_S16384x1024)
    (m ((c : Thread nD τ).loc main_arg2))
    (shapeCast S1x1024 (m ((c : Thread nD τ).loc main_arg3) : S1024.Idx → EReal) shapeCasts_S1024_S1x1024)) shapeCasts_S16384x1024_S8x2048x1024

/-- The second projection, of `B`. -/
def kMB (c : Dev nD) : Spec.T3 :=
  shapeCast S8x2048x1024 (Spec.lin
    (shapeCast S16384x1024 (m ((c : Thread nD τ).loc main_arg1) : S8x2048x1024.Idx → EReal) shapeCasts_S8x2048x1024_S16384x1024)
    (m ((c : Thread nD τ).loc main_arg4))
    (shapeCast S1x1024 (m ((c : Thread nD τ).loc main_arg5) : S1024.Idx → EReal) shapeCasts_S1024_S1x1024)) shapeCasts_S16384x1024_S8x2048x1024

/-- The three results as the program computes them. -/
def kOB (c : Dev nD) : Spec.T3 := Spec.outB (kMA m c) (kMB m c) (m ((c : Thread nD τ).loc main_arg0))
def kOA (c : Dev nD) : Spec.T3 := Spec.outA (kMB m c) (kMA m c) (m ((c : Thread nD τ).loc main_arg1))
def kOAB (c : Dev nD) : Spec.T3 :=
  Spec.comb (kOA m c) (kOB m c) (m ((c : Thread nD τ).loc main_arg6))
    (shapeCast S1x1024 (m ((c : Thread nD τ).loc main_arg7) : S1024.Idx → EReal) shapeCasts_S1024_S1x1024) (m ((c : Thread nD τ).loc main_arg8))

/-! ## Host stretches: a buffer a stretch does not write keeps its contents; a buffer it writes holds the
    operation's function of the earlier contents. Stated over an arbitrary valuation `X`. -/

section Host
variable (X : Valuation τ sig (Elt Ideal))

theorem host1_keep (b : Ref sig .tc) (hb : b ≠ main_v11) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem host2_keep (b : Ref sig .tc) (hb : b ≠ main_v13) :
    StableHlo.after hostOps2 X (Proc.devRef .tc b) = X (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem host3_keep (b : Ref sig .tc) (hb : b ≠ main_v15) :
    StableHlo.after hostOps3 X (Proc.devRef .tc b) = X (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The first stretch at a buffer none of its ten operations writes. -/
theorem host0_keep (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) (h9 : b ≠ main_v9) :
    StableHlo.after hostOps0 X (Proc.devRef .tc b) = X (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-- The reshapes of the three later stretches. -/
theorem host1_v11 : (StableHlo.after hostOps1 X (Proc.devRef .tc main_v11) : S8x2048x1024.Idx → EReal)
    = shapeCast S8x2048x1024 (X (Proc.devRef .tc main_v10) : S16384x1024.Idx → EReal) shapeCasts_S16384x1024_S8x2048x1024 := by
  after_results
  rfl
theorem host2_v13 : (StableHlo.after hostOps2 X (Proc.devRef .tc main_v13) : S8x2048x1024.Idx → EReal)
    = shapeCast S8x2048x1024 (X (Proc.devRef .tc main_v12) : S16384x1024.Idx → EReal) shapeCasts_S16384x1024_S8x2048x1024 := by
  after_results
  rfl
theorem host3_v15 : (StableHlo.after hostOps3 X (Proc.devRef .tc main_v15) : S1x1024.Idx → EReal)
    = shapeCast S1x1024 (X (Proc.devRef .tc main_arg7) : S1024.Idx → EReal) shapeCasts_S1024_S1x1024 := by
  after_results
  rfl

/-- The first stretch: each conversion is the identity on extended reals, each reshape a reindexing. -/
theorem host0_v0 : (StableHlo.after hostOps0 X (Proc.devRef .tc main_v0) : S8x2048x1024.Idx → EReal) = X (Proc.devRef .tc main_arg0) := by
  after_results
  rfl
theorem host0_v1 : (StableHlo.after hostOps0 X (Proc.devRef .tc main_v1) : S8x2048x1024.Idx → EReal) = X (Proc.devRef .tc main_arg1) := by
  after_results
  rfl
theorem host0_v2 : (StableHlo.after hostOps0 X (Proc.devRef .tc main_v2) : S1024x1024.Idx → EReal) = X (Proc.devRef .tc main_arg2) := by
  after_results
  rfl
theorem host0_v3 : (StableHlo.after hostOps0 X (Proc.devRef .tc main_v3) : S1024x1024.Idx → EReal) = X (Proc.devRef .tc main_arg4) := by
  after_results
  rfl
theorem host0_v4 : (StableHlo.after hostOps0 X (Proc.devRef .tc main_v4) : S1024x1024.Idx → EReal) = X (Proc.devRef .tc main_arg6) := by
  after_results
  rfl
theorem host0_v5 : (StableHlo.after hostOps0 X (Proc.devRef .tc main_v5) : S1024x1024.Idx → EReal) = X (Proc.devRef .tc main_arg8) := by
  after_results
  rfl
theorem host0_v6 : (StableHlo.after hostOps0 X (Proc.devRef .tc main_v6) : S16384x1024.Idx → EReal)
    = shapeCast S16384x1024 (X (Proc.devRef .tc main_arg0) : S8x2048x1024.Idx → EReal) shapeCasts_S8x2048x1024_S16384x1024 := by
  after_results
  rfl
theorem host0_v7 : (StableHlo.after hostOps0 X (Proc.devRef .tc main_v7) : S16384x1024.Idx → EReal)
    = shapeCast S16384x1024 (X (Proc.devRef .tc main_arg1) : S8x2048x1024.Idx → EReal) shapeCasts_S8x2048x1024_S16384x1024 := by
  after_results
  rfl
theorem host0_v8 : (StableHlo.after hostOps0 X (Proc.devRef .tc main_v8) : S1x1024.Idx → EReal)
    = shapeCast S1x1024 (X (Proc.devRef .tc main_arg3) : S1024.Idx → EReal) shapeCasts_S1024_S1x1024 := by
  after_results
  rfl
theorem host0_v9 : (StableHlo.after hostOps0 X (Proc.devRef .tc main_v9) : S1x1024.Idx → EReal)
    = shapeCast S1x1024 (X (Proc.devRef .tc main_arg5) : S1024.Idx → EReal) shapeCasts_S1024_S1x1024 := by
  after_results
  rfl

end Host

/-! ## The contents at the boundaries, walked back to the launch memory -/

/-! The arrays of the regions that the walk below meets, in window order. -/
example : Pipeline.arrRef spec0 3 = main_v10 := rfl
example : Pipeline.arrRef spec1 3 = main_v12 := rfl
example : Pipeline.arrRef spec2 0 = main_v11 := rfl
example : Pipeline.arrRef spec2 1 = main_v13 := rfl
example : Pipeline.arrRef spec2 3 = main_v14 := rfl
example : Pipeline.arrRef spec3 3 = main_v14 := rfl
example : Pipeline.arrRef spec3 7 = main_v16_0 := rfl
example : Pipeline.arrRef spec3 8 = main_v16_1 := rfl

/-! ### Region 0: the first linear layer -/

theorem V1_v6 (c : Dev nD) : (V1 m ρ c main_v6 : S16384x1024.Idx → EReal)
    = shapeCast S16384x1024 (m ((c : Thread nD τ).loc main_arg0) : S8x2048x1024.Idx → EReal) shapeCasts_S8x2048x1024_S16384x1024 :=
  host0_v6 (W0 m ρ c)
theorem V1_v2 (c : Dev nD) : (V1 m ρ c main_v2 : S1024x1024.Idx → EReal) = m ((c : Thread nD τ).loc main_arg2) :=
  host0_v2 (W0 m ρ c)
theorem V1_v8 (c : Dev nD) : (V1 m ρ c main_v8 : S1x1024.Idx → EReal)
    = shapeCast S1x1024 (m ((c : Thread nD τ).loc main_arg3) : S1024.Idx → EReal) shapeCasts_S1024_S1x1024 :=
  host0_v8 (W0 m ρ c)

theorem W2_v10 (c : Dev nD) : (W2 m ρ c (Proc.devRef .tc main_v10) : S16384x1024.Idx → EReal)
    = Spec.lin
        (shapeCast S16384x1024 (m ((c : Thread nD τ).loc main_arg0) : S8x2048x1024.Idx → EReal) shapeCasts_S8x2048x1024_S16384x1024)
        (m ((c : Thread nD τ).loc main_arg2))
        (shapeCast S1x1024 (m ((c : Thread nD τ).loc main_arg3) : S1024.Idx → EReal) shapeCasts_S1024_S1x1024) :=
  (W2_arr m ρ c 3).trans ((arr0 (V1 m ρ) c).trans (by rw [V1_v6 m ρ c, V1_v2 m ρ c, V1_v8 m ρ c]))

/-! ### Region 1: the second linear layer -/

theorem V3_v7 (c : Dev nD) : (V3 m ρ c main_v7 : S16384x1024.Idx → EReal)
    = shapeCast S16384x1024 (m ((c : Thread nD τ).loc main_arg1) : S8x2048x1024.Idx → EReal) shapeCasts_S8x2048x1024_S16384x1024 :=
  (host1_keep (W2 m ρ c) main_v7 (by decide)).trans ((W2_of_ne m ρ c main_v7 (by decide)).trans (host0_v7 (W0 m ρ c)))
theorem V3_v3 (c : Dev nD) : (V3 m ρ c main_v3 : S1024x1024.Idx → EReal) = m ((c : Thread nD τ).loc main_arg4) :=
  (host1_keep (W2 m ρ c) main_v3 (by decide)).trans ((W2_of_ne m ρ c main_v3 (by decide)).trans (host0_v3 (W0 m ρ c)))
theorem V3_v9 (c : Dev nD) : (V3 m ρ c main_v9 : S1x1024.Idx → EReal)
    = shapeCast S1x1024 (m ((c : Thread nD τ).loc main_arg5) : S1024.Idx → EReal) shapeCasts_S1024_S1x1024 :=
  (host1_keep (W2 m ρ c) main_v9 (by decide)).trans ((W2_of_ne m ρ c main_v9 (by decide)).trans (host0_v9 (W0 m ρ c)))

theorem W4_v12 (c : Dev nD) : (W4 m ρ c (Proc.devRef .tc main_v12) : S16384x1024.Idx → EReal)
    = Spec.lin
        (shapeCast S16384x1024 (m ((c : Thread nD τ).loc main_arg1) : S8x2048x1024.Idx → EReal) shapeCasts_S8x2048x1024_S16384x1024)
        (m ((c : Thread nD τ).loc main_arg4))
        (shapeCast S1x1024 (m ((c : Thread nD τ).loc main_arg5) : S1024.Idx → EReal) shapeCasts_S1024_S1x1024) :=
  (W4_arr m ρ c 3).trans ((arr1 (V3 m ρ) c).trans (by rw [V3_v7 m ρ c, V3_v3 m ρ c, V3_v9 m ρ c]))

/-! ### Region 2: the first attention product -/

theorem V5_v11 (c : Dev nD) : (V5 m ρ c main_v11 : S8x2048x1024.Idx → EReal) = kMA m c :=
  (host2_keep (W4 m ρ c) main_v11 (by decide)).trans ((W4_of_ne m ρ c main_v11 (by decide)).trans
    ((host1_v11 (W2 m ρ c)).trans (by unfold kMA; rw [W2_v10 m ρ c])))
theorem V5_v13 (c : Dev nD) : (V5 m ρ c main_v13 : S8x2048x1024.Idx → EReal) = kMB m c :=
  (host2_v13 (W4 m ρ c)).trans (by unfold kMB; rw [W4_v12 m ρ c])
theorem V5_v0 (c : Dev nD) : (V5 m ρ c main_v0 : S8x2048x1024.Idx → EReal) = m ((c : Thread nD τ).loc main_arg0) :=
  (host2_keep (W4 m ρ c) main_v0 (by decide)).trans ((W4_of_ne m ρ c main_v0 (by decide)).trans
    ((host1_keep (W2 m ρ c) main_v0 (by decide)).trans ((W2_of_ne m ρ c main_v0 (by decide)).trans (host0_v0 (W0 m ρ c)))))

theorem W6_v14 (c : Dev nD) : (W6 m ρ c (Proc.devRef .tc main_v14) : S8x2048x1024.Idx → EReal) = kOB m c :=
  (W6_arr m ρ c 3).trans ((arr2 (V5 m ρ) c).trans (by unfold kOB; rw [V5_v11 m ρ c, V5_v13 m ρ c, V5_v0 m ρ c]))

/-! ### Region 3: the second attention product and the closing layer -/

theorem V7_v13 (c : Dev nD) : (V7 m ρ c main_v13 : S8x2048x1024.Idx → EReal) = kMB m c :=
  (host3_keep (W6 m ρ c) main_v13 (by decide)).trans ((W6_arr m ρ c 1).trans
    (((dat2 (V5 m ρ) c).arrAt_in 1 rfl _).trans ((A_eq2 (V5 m ρ) c 1).trans (V5_v13 m ρ c))))
theorem V7_v11 (c : Dev nD) : (V7 m ρ c main_v11 : S8x2048x1024.Idx → EReal) = kMA m c :=
  (host3_keep (W6 m ρ c) main_v11 (by decide)).trans ((W6_arr m ρ c 0).trans
    (((dat2 (V5 m ρ) c).arrAt_in 0 rfl _).trans ((A_eq2 (V5 m ρ) c 0).trans (V5_v11 m ρ c))))
theorem V7_v14 (c : Dev nD) : (V7 m ρ c main_v14 : S8x2048x1024.Idx → EReal) = kOB m c :=
  (host3_keep (W6 m ρ c) main_v14 (by decide)).trans (W6_v14 m ρ c)

/-- A buffer of the first stretch that no region before the last writes and no later stretch writes. -/
theorem W6_of_W1 (c : Dev nD) (b : Ref sig .tc) (h0 : ∀ w, Pipeline.arrRef spec0 w ≠ b) (h1 : ∀ w, Pipeline.arrRef spec1 w ≠ b)
    (h2 : ∀ w, Pipeline.arrRef spec2 w ≠ b) (e1 : b ≠ main_v11) (e2 : b ≠ main_v13) :
    W6 m ρ c (Proc.devRef .tc b) = W1 m ρ c (Proc.devRef .tc b) :=
  (W6_of_ne m ρ c b h2).trans ((host2_keep (W4 m ρ c) b e2).trans ((W4_of_ne m ρ c b h1).trans
    ((host1_keep (W2 m ρ c) b e1).trans (W2_of_ne m ρ c b h0))))

theorem V7_v1 (c : Dev nD) : (V7 m ρ c main_v1 : S8x2048x1024.Idx → EReal) = m ((c : Thread nD τ).loc main_arg1) :=
  (host3_keep (W6 m ρ c) main_v1 (by decide)).trans
    ((W6_of_W1 m ρ c main_v1 (by decide) (by decide) (by decide) (by decide) (by decide)).trans (host0_v1 (W0 m ρ c)))
theorem V7_v4 (c : Dev nD) : (V7 m ρ c main_v4 : S1024x1024.Idx → EReal) = m ((c : Thread nD τ).loc main_arg6) :=
  (host3_keep (W6 m ρ c) main_v4 (by decide)).trans
    ((W6_of_W1 m ρ c main_v4 (by decide) (by decide) (by decide) (by decide) (by decide)).trans (host0_v4 (W0 m ρ c)))
theorem V7_v5 (c : Dev nD) : (V7 m ρ c main_v5 : S1024x1024.Idx → EReal) = m ((c : Thread nD τ).loc main_arg8) :=
  (host3_keep (W6 m ρ c) main_v5 (by decide)).trans
    ((W6_of_W1 m ρ c main_v5 (by decide) (by decide) (by decide) (by decide) (by decide)).trans (host0_v5 (W0 m ρ c)))
theorem W6_arg7 (c : Dev nD) : (W6 m ρ c (Proc.devRef .tc main_arg7) : S1024.Idx → EReal) = m ((c : Thread nD τ).loc main_arg7) :=
  (W6_of_W1 m ρ c main_arg7 (by decide) (by decide) (by decide) (by decide) (by decide)).trans
    (host0_keep (W0 m ρ c) main_arg7 (by decide) (by decide) (by decide) (by decide) (by decide) (by decide) (by decide) (by decide)
      (by decide) (by decide))
theorem V7_v15 (c : Dev nD) : (V7 m ρ c main_v15 : S1x1024.Idx → EReal)
    = shapeCast S1x1024 (m ((c : Thread nD τ).loc main_arg7) : S1024.Idx → EReal) shapeCasts_S1024_S1x1024 :=
  (host3_v15 (W6 m ρ c)).trans (by rw [W6_arg7 m ρ c])

/-- The last boundary's contents at the three result arrays. -/
theorem W8_v16_0 (c : Dev nD) : W8 m ρ c (Proc.devRef .tc main_v16_0) = kOA m c :=
  (W8_arr m ρ c 7).trans ((arr3_7 (V7 m ρ) c).trans (by unfold kOA; rw [V7_v13 m ρ c, V7_v11 m ρ c, V7_v1 m ρ c]))
theorem W8_v14 (c : Dev nD) : W8 m ρ c (Proc.devRef .tc main_v14) = kOB m c :=
  (W8_arr m ρ c 3).trans (((dat3 (V7 m ρ) c).arrAt_in 3 rfl _).trans ((A_eq3 (V7 m ρ) c 3).trans (V7_v14 m ρ c)))
theorem W8_v16_1 (c : Dev nD) : W8 m ρ c (Proc.devRef .tc main_v16_1) = kOAB m c :=
  (W8_arr m ρ c 8).trans ((arr3_8 (V7 m ρ) c).trans (by
    unfold kOAB kOA
    rw [V7_v13 m ρ c, V7_v11 m ρ c, V7_v1 m ρ c, V7_v14 m ρ c, V7_v4 m ρ c, V7_v15 m ρ c, V7_v5 m ρ c]))

end Cert.KernelIdeal.Val

end
-- ==== Proof.RefVal.lean ====
/-
  The reference program read as mathematics, one stage at a time.

  Two linear layers give the projections MA = A·Waᵀ + ba and MB = B·Wbᵀ + bb. The scores are the feature dot
  products S[b,l,m] = Σ_h MA[b,l,h]·MB[b,m,h]. A stabilised softmax is taken of S along its last axis and, of the
  transposed scores, along theirs: the row maximum is a fold of max from -∞ (a further maximum with -∞ changes
  nothing, since a fold of max is at least its initial value), the exponentials of the differences are summed from
  zero, and the quotient is the softmax. The two contractions with B and A give out_a and out_b (for out_a the dot
  product is commuted to put the fixed row first), and the closing layer combines them.
-/
import proofs.«430376_j52939766890718_3_alg».proof.Proof.Gen.ReferenceIdeal.Run
import proofs.«430376_j52939766890718_3_alg».proof.Proof.Gen.ReferenceIdeal.Read
import proofs.«430376_j52939766890718_3_alg».proof.Proof.Spec
import Idealize.ShloMosaic.Lib.Pipeline.Value
import Idealize.ShloMosaic.Lib.ValueIdx
import Idealize.ShloMosaic.PureOps.Ideal.Laws
import Mathlib.Data.Finset.Fold

noncomputable section

namespace Cert.ReferenceIdeal.RefVal

open Cert.ReferenceIdeal Cert.ReferenceIdeal.Gen Cert.ReferenceIdeal.Read Idealize.ShloMosaic Idealize.ShloMosaic.TcCoe
open Idealize.ShloMosaic.ValueIdx

variable (x0 x1 : (⟨S8x2048x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1024x1024, .f32⟩ : BufTy).Contents (Elt Ideal))
  (x7 : (⟨S1024, .f32⟩ : BufTy).Contents (Elt Ideal)) (x8 : (⟨S1024x1024, .f32⟩ : BufTy).Contents (Elt Ideal))

theorem v3_eq : val_main_v3 (F := Ideal) x0 x2 x3 = Spec.proj x0 x2 x3 := by
  funext i
  rw [val_main_v3_apply, val_main_v0_apply, val_main_v2_apply, val_main_v1_apply]
  unfold Spec.proj
  refine congrArg₂ (· + ·) (Finset.sum_congr rfl fun k _ => ?_) ?_
  · refine congrArg₂ (· * ·) (congrArg x0 ?_) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x3 (funext fun a => Fin.ext (by match a with | ⟨0, _⟩ => rfl))

theorem v7_eq : val_main_v7 (F := Ideal) x1 x4 x5 = Spec.proj x1 x4 x5 := by
  funext i
  rw [val_main_v7_apply, val_main_v4_apply, val_main_v6_apply, val_main_v5_apply]
  unfold Spec.proj
  refine congrArg₂ (· + ·) (Finset.sum_congr rfl fun k _ => ?_) ?_
  · refine congrArg₂ (· * ·) (congrArg x1 ?_) (congrArg x4 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x5 (funext fun a => Fin.ext (by match a with | ⟨0, _⟩ => rfl))

/-- The scores: the feature dot product of the two projections. -/
theorem v8_apply (b : Fin 8) (l m : Fin 2048) :
    val_main_v8 (F := Ideal) x0 x1 x2 x3 x4 x5 (ix3 b l m)
      = Spec.dotH (Spec.proj x0 x2 x3) (Spec.proj x1 x4 x5) b l m := by
  rw [val_main_v8_apply, v3_eq, v7_eq]
  unfold Spec.dotH
  refine Finset.sum_congr rfl fun k _ => ?_
  refine congrArg₂ (· * ·) (congrArg _ ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- A maximum-reduction over the last axis from -∞ is the row maximum. -/
theorem reduceMax_apply (y : S8x2048x2048.Idx → EReal)
    (c : S_.Idx → EReal) (hc : c (Shape.Idx.first h_S_) = Spec.negInf)
    (b : Fin 8) (l : Fin 2048) :
    Host.reduce (α := EReal) (FloatOps.maximumf (F := Ideal) (φ := .f32)) y c reducesTo_S8x2048x2048_S8x2048_d2 h_S_ (ix2 b l)
      = Spec.rowMax (fun m : Fin 2048 => y (ix3 b l m)) := by
  rw [Host.reduce_eq_fold_single (α := EReal) (FloatOps.maximumf (F := Ideal) (φ := .f32)) y c reducesTo_S8x2048x2048_S8x2048_d2 (by decide) h_S_ (ix2 b l), hc]
  unfold Spec.rowMax
  refine congrArg (Finset.fold max Spec.negInf · Finset.univ) ?_
  funext m
  exact congrArg y (funext fun a => Fin.ext (by match a with | ⟨0, _⟩ => rfl | ⟨1, _⟩ => rfl | ⟨2, _⟩ => rfl))

/-- The row maximum of the scores over the last axis. -/
theorem v9_apply (b : Fin 8) (l : Fin 2048) :
    val_main_v9 (F := Ideal) x0 x1 x2 x3 x4 x5 (ix2 b l)
      = Spec.rowMax (fun m : Fin 2048 => val_main_v8 (F := Ideal) x0 x1 x2 x3 x4 x5 (ix3 b l m)) := by
  unfold val_main_v9
  exact reduceMax_apply _ _ rfl b l

/-- The maximum with the -∞ splat changes nothing: a fold of max is at least its initial value. -/
theorem negInf_max_rowMax {n : Nat} (f : Fin n → EReal) : max Spec.negInf (Spec.rowMax f) = Spec.rowMax f :=
  max_eq_right ((Finset.le_fold_max _).mpr (Or.inl le_rfl))

theorem v11_apply (b : Fin 8) (l : Fin 2048) :
    val_main_v11 (F := Ideal) x0 x1 x2 x3 x4 x5 (ix2 b l)
      = Spec.rowMax (fun m : Fin 2048 => val_main_v8 (F := Ideal) x0 x1 x2 x3 x4 x5 (ix3 b l m)) := by
  rw [val_main_v11_apply, val_main_v10_apply, val_main_cst_0_apply, v9_apply]
  exact negInf_max_rowMax _

theorem v13_apply (b : Fin 8) (l m : Fin 2048) :
    val_main_v13 (F := Ideal) x0 x1 x2 x3 x4 x5 (ix3 b l m)
      = Spec.rowMax (fun m' : Fin 2048 => val_main_v8 (F := Ideal) x0 x1 x2 x3 x4 x5 (ix3 b l m')) := by
  rw [val_main_v13_apply, val_main_v12_apply]
  refine (congrArg (val_main_v11 (F := Ideal) x0 x1 x2 x3 x4 x5) ?_).trans (v11_apply x0 x1 x2 x3 x4 x5 b l)
  exact funext fun a => Fin.ext (by match a with | ⟨0, _⟩ => rfl | ⟨1, _⟩ => rfl)

/-- The exponential of the score less its row maximum. -/
theorem v15_apply (b : Fin 8) (l m : Fin 2048) :
    val_main_v15 (F := Ideal) x0 x1 x2 x3 x4 x5 (ix3 b l m)
      = Ideal.exp (val_main_v8 (F := Ideal) x0 x1 x2 x3 x4 x5 (ix3 b l m)
          - Spec.rowMax (fun m' : Fin 2048 => val_main_v8 (F := Ideal) x0 x1 x2 x3 x4 x5 (ix3 b l m'))) := by
  rw [val_main_v15_apply, val_main_v14_apply, v13_apply]
  rfl

/-- The row sum of the exponentials, from zero. -/
theorem v16_apply (b : Fin 8) (l : Fin 2048) :
    val_main_v16 (F := Ideal) x0 x1 x2 x3 x4 x5 (ix2 b l)
      = ∑ j : Fin 2048, Ideal.exp (val_main_v8 (F := Ideal) x0 x1 x2 x3 x4 x5 (ix3 b l j)
          - Spec.rowMax (fun m' : Fin 2048 => val_main_v8 (F := Ideal) x0 x1 x2 x3 x4 x5 (ix3 b l m'))) := by
  rw [val_main_v16_apply, val_main_cst_1_apply]
  refine (congrArg (· + _) Ideal.ofBits_zero_f32).trans ((zero_add _).trans ?_)
  refine Finset.sum_congr rfl fun j _ => ?_
  refine (congrArg (val_main_v15 (F := Ideal) x0 x1 x2 x3 x4 x5) ?_).trans (v15_apply x0 x1 x2 x3 x4 x5 b l j)
  exact funext fun a => Fin.ext (by match a with | ⟨0, _⟩ => rfl | ⟨1, _⟩ => rfl | ⟨2, _⟩ => rfl)

theorem v18_apply (b : Fin 8) (l m : Fin 2048) :
    val_main_v18 (F := Ideal) x0 x1 x2 x3 x4 x5 (ix3 b l m)
      = ∑ j : Fin 2048, Ideal.exp (val_main_v8 (F := Ideal) x0 x1 x2 x3 x4 x5 (ix3 b l j)
          - Spec.rowMax (fun m' : Fin 2048 => val_main_v8 (F := Ideal) x0 x1 x2 x3 x4 x5 (ix3 b l m'))) := by
  rw [val_main_v18_apply, val_main_v17_apply]
  refine (congrArg (val_main_v16 (F := Ideal) x0 x1 x2 x3 x4 x5) ?_).trans (v16_apply x0 x1 x2 x3 x4 x5 b l)
  exact funext fun a => Fin.ext (by match a with | ⟨0, _⟩ => rfl | ⟨1, _⟩ => rfl)

/-- The softmax of a score row over its last axis. -/
theorem v19_apply (b : Fin 8) (l m : Fin 2048) :
    val_main_v19 (F := Ideal) x0 x1 x2 x3 x4 x5 (ix3 b l m)
      = Spec.softmax (fun m' : Fin 2048 => Spec.dotH (Spec.proj x0 x2 x3) (Spec.proj x1 x4 x5) b l m') m := by
  rw [val_main_v19_apply, v15_apply, v18_apply]
  simp only [v8_apply]
  rfl

/-- The transposed scores. -/
theorem v20_apply (b : Fin 8) (m l : Fin 2048) :
    val_main_v20 (F := Ideal) x0 x1 x2 x3 x4 x5 (ix3 b m l) = val_main_v8 (F := Ideal) x0 x1 x2 x3 x4 x5 (ix3 b l m) := by
  rw [val_main_v20_apply]
  exact congrArg (val_main_v8 (F := Ideal) x0 x1 x2 x3 x4 x5) (funext fun a => Fin.ext (by match a with | ⟨0, _⟩ => rfl | ⟨1, _⟩ => rfl | ⟨2, _⟩ => rfl))

theorem v21_apply (b : Fin 8) (m : Fin 2048) :
    val_main_v21 (F := Ideal) x0 x1 x2 x3 x4 x5 (ix2 b m)
      = Spec.rowMax (fun l : Fin 2048 => val_main_v20 (F := Ideal) x0 x1 x2 x3 x4 x5 (ix3 b m l)) := by
  unfold val_main_v21
  exact reduceMax_apply _ _ rfl b m

theorem v23_apply (b : Fin 8) (m : Fin 2048) :
    val_main_v23 (F := Ideal) x0 x1 x2 x3 x4 x5 (ix2 b m)
      = Spec.rowMax (fun l : Fin 2048 => val_main_v20 (F := Ideal) x0 x1 x2 x3 x4 x5 (ix3 b m l)) := by
  rw [val_main_v23_apply, val_main_v22_apply, val_main_cst_3_apply, v21_apply]
  exact negInf_max_rowMax _

theorem v25_apply (b : Fin 8) (m l : Fin 2048) :
    val_main_v25 (F := Ideal) x0 x1 x2 x3 x4 x5 (ix3 b m l)
      = Spec.rowMax (fun l' : Fin 2048 => val_main_v20 (F := Ideal) x0 x1 x2 x3 x4 x5 (ix3 b m l')) := by
  rw [val_main_v25_apply, val_main_v24_apply]
  refine (congrArg (val_main_v23 (F := Ideal) x0 x1 x2 x3 x4 x5) ?_).trans (v23_apply x0 x1 x2 x3 x4 x5 b m)
  exact funext fun a => Fin.ext (by match a with | ⟨0, _⟩ => rfl | ⟨1, _⟩ => rfl)

theorem v27_apply (b : Fin 8) (m l : Fin 2048) :
    val_main_v27 (F := Ideal) x0 x1 x2 x3 x4 x5 (ix3 b m l)
      = Ideal.exp (val_main_v20 (F := Ideal) x0 x1 x2 x3 x4 x5 (ix3 b m l)
          - Spec.rowMax (fun l' : Fin 2048 => val_main_v20 (F := Ideal) x0 x1 x2 x3 x4 x5 (ix3 b m l'))) := by
  rw [val_main_v27_apply, val_main_v26_apply, v25_apply]
  rfl

theorem v28_apply (b : Fin 8) (m : Fin 2048) :
    val_main_v28 (F := Ideal) x0 x1 x2 x3 x4 x5 (ix2 b m)
      = ∑ j : Fin 2048, Ideal.exp (val_main_v20 (F := Ideal) x0 x1 x2 x3 x4 x5 (ix3 b m j)
          - Spec.rowMax (fun l' : Fin 2048 => val_main_v20 (F := Ideal) x0 x1 x2 x3 x4 x5 (ix3 b m l'))) := by
  rw [val_main_v28_apply, val_main_cst_4_apply]
  refine (congrArg (· + _) Ideal.ofBits_zero_f32).trans ((zero_add _).trans ?_)
  refine Finset.sum_congr rfl fun j _ => ?_
  refine (congrArg (val_main_v27 (F := Ideal) x0 x1 x2 x3 x4 x5) ?_).trans (v27_apply x0 x1 x2 x3 x4 x5 b m j)
  exact funext fun a => Fin.ext (by match a with | ⟨0, _⟩ => rfl | ⟨1, _⟩ => rfl | ⟨2, _⟩ => rfl)

theorem v30_apply (b : Fin 8) (m l : Fin 2048) :
    val_main_v30 (F := Ideal) x0 x1 x2 x3 x4 x5 (ix3 b m l)
      = ∑ j : Fin 2048, Ideal.exp (val_main_v20 (F := Ideal) x0 x1 x2 x3 x4 x5 (ix3 b m j)
          - Spec.rowMax (fun l' : Fin 2048 => val_main_v20 (F := Ideal) x0 x1 x2 x3 x4 x5 (ix3 b m l'))) := by
  rw [val_main_v30_apply, val_main_v29_apply]
  refine (congrArg (val_main_v28 (F := Ideal) x0 x1 x2 x3 x4 x5) ?_).trans (v28_apply x0 x1 x2 x3 x4 x5 b m)
  exact funext fun a => Fin.ext (by match a with | ⟨0, _⟩ => rfl | ⟨1, _⟩ => rfl)

/-- The softmax of a score column, written over the transposed scores; the dot product commutes. -/
theorem v31_apply (b : Fin 8) (m l : Fin 2048) :
    val_main_v31 (F := Ideal) x0 x1 x2 x3 x4 x5 (ix3 b m l)
      = Spec.softmax (fun l' : Fin 2048 => Spec.dotH (Spec.proj x1 x4 x5) (Spec.proj x0 x2 x3) b m l') l := by
  rw [val_main_v31_apply, v27_apply, v30_apply]
  simp only [v20_apply, v8_apply]
  exact congrArg (Spec.softmax · l) (funext fun l' => Spec.dotH_comm _ _ b l' m)

theorem v33_apply (b : Fin 8) (m l : Fin 2048) :
    val_main_v33 (F := Ideal) x0 x1 x2 x3 x4 x5 (ix3 b m l)
      = Spec.softmax (fun m' : Fin 2048 => Spec.dotH (Spec.proj x0 x2 x3) (Spec.proj x1 x4 x5) b l m') m := by
  rw [val_main_v33_apply]
  exact (congrArg (val_main_v19 (F := Ideal) x0 x1 x2 x3 x4 x5) (funext fun a => Fin.ext (by match a with | ⟨0, _⟩ => rfl | ⟨1, _⟩ => rfl | ⟨2, _⟩ => rfl))).trans (v19_apply x0 x1 x2 x3 x4 x5 b l m)

/-- The reference's first result is `out_a` of the two projections. -/
theorem v32_eq : val_main_v32 (F := Ideal) x0 x1 x2 x3 x4 x5 = Spec.outA (Spec.proj x1 x4 x5) (Spec.proj x0 x2 x3) x1 := by
  funext i
  rw [val_main_v32_apply]
  unfold Spec.outA
  refine Finset.sum_congr rfl fun k _ => ?_
  refine congrArg₂ (· * ·) ?_ (congrArg x1 (funext fun a => Fin.ext (by match a with | ⟨0, _⟩ => rfl | ⟨1, _⟩ => rfl | ⟨2, _⟩ => rfl)))
  exact (congrArg (val_main_v31 (F := Ideal) x0 x1 x2 x3 x4 x5) (funext fun a => Fin.ext (by match a with | ⟨0, _⟩ => rfl | ⟨1, _⟩ => rfl | ⟨2, _⟩ => rfl))).trans (v31_apply x0 x1 x2 x3 x4 x5 (i 0) (i 1) k)

/-- The reference's second result is `out_b` of the two projections. -/
theorem v34_eq : val_main_v34 (F := Ideal) x0 x1 x2 x3 x4 x5 = Spec.outB (Spec.proj x0 x2 x3) (Spec.proj x1 x4 x5) x0 := by
  funext i
  rw [val_main_v34_apply]
  unfold Spec.outB
  refine Finset.sum_congr rfl fun k _ => ?_
  refine congrArg₂ (· * ·) ?_ (congrArg x0 (funext fun a => Fin.ext (by match a with | ⟨0, _⟩ => rfl | ⟨1, _⟩ => rfl | ⟨2, _⟩ => rfl)))
  exact (congrArg (val_main_v33 (F := Ideal) x0 x1 x2 x3 x4 x5) (funext fun a => Fin.ext (by match a with | ⟨0, _⟩ => rfl | ⟨1, _⟩ => rfl | ⟨2, _⟩ => rfl))).trans (v33_apply x0 x1 x2 x3 x4 x5 (i 0) (i 1) k)

/-- The reference's third result is the closing layer over the first two. -/
theorem v40_eq : val_main_v40 (F := Ideal) x0 x1 x2 x3 x4 x5 x6 x7 x8
    = Spec.combV (Spec.outA (Spec.proj x1 x4 x5) (Spec.proj x0 x2 x3) x1) (Spec.outB (Spec.proj x0 x2 x3) (Spec.proj x1 x4 x5) x0) x6 x7 x8 := by
  funext i
  rw [val_main_v40_apply, val_main_v38_apply, val_main_v35_apply, val_main_v37_apply, val_main_v36_apply,
    val_main_v39_apply, v32_eq, v34_eq]
  unfold Spec.combV
  refine congrArg₂ (· + ·) (congrArg₂ (· + ·) (Finset.sum_congr rfl fun k _ => ?_) ?_) (Finset.sum_congr rfl fun k _ => ?_)
  · exact congrArg₂ (· * ·) (congrArg _ (funext fun a => Fin.ext (by match a with | ⟨0, _⟩ => rfl | ⟨1, _⟩ => rfl | ⟨2, _⟩ => rfl))) (congrArg x6 (funext fun a => Fin.ext (by match a with | ⟨0, _⟩ => rfl | ⟨1, _⟩ => rfl)))
  · exact congrArg x7 (funext fun a => Fin.ext (by match a with | ⟨0, _⟩ => rfl))
  · exact congrArg₂ (· * ·) (congrArg _ (funext fun a => Fin.ext (by match a with | ⟨0, _⟩ => rfl | ⟨1, _⟩ => rfl | ⟨2, _⟩ => rfl))) (congrArg x8 (funext fun a => Fin.ext (by match a with | ⟨0, _⟩ => rfl | ⟨1, _⟩ => rfl)))

end Cert.ReferenceIdeal.RefVal

end
-- ==== Proof.lean ====
/-
  The certificate: the Pallas program (two linear layers, two fused softmax–value products, a closing layer: four
  pallas_calls) and the jnp reference compute the same three arrays over the extended reals.

  The three frames are the generated ones (the reference's is its generated run with the results dropped).  The ideal pass
  rewrote nothing, so `preserves` is `True`.  For `algebraic`: the program's run leaves each result array at the last
  segment boundary's contents; those contents are, region by region, the functions of `Spec` (Reg0 … Reg3) of the arrays
  each region is entered with, which the boundary fold traces back to the arguments (Glue).  The reference's run leaves
  its results at the composed term of its 47 operations, which read index by index are the same functions of the same
  arguments (RefVal), once the flattened linear layers are folded back to the batched ones (Bridge).
-/
import proofs.«430376_j52939766890718_3_alg».proof.Defs
import proofs.«430376_j52939766890718_3_alg».proof.Proof.Gen.Kernel
import proofs.«430376_j52939766890718_3_alg».proof.Proof.Gen.Kernel.Skeleton
import proofs.«430376_j52939766890718_3_alg».proof.Proof.Gen.Kernel.Launch
import proofs.«430376_j52939766890718_3_alg».proof.Proof.Gen.Kernel.Points
import proofs.«430376_j52939766890718_3_alg».proof.Proof.Gen.Kernel.Frame
import proofs.«430376_j52939766890718_3_alg».proof.Proof.Gen.KernelIdeal
import proofs.«430376_j52939766890718_3_alg».proof.Proof.Gen.KernelIdeal.Skeleton
import proofs.«430376_j52939766890718_3_alg».proof.Proof.Gen.KernelIdeal.Launch
import proofs.«430376_j52939766890718_3_alg».proof.Proof.Gen.KernelIdeal.Points
import proofs.«430376_j52939766890718_3_alg».proof.Proof.Gen.KernelIdeal.Frame
import proofs.«430376_j52939766890718_3_alg».proof.Proof.Gen.ReferenceIdeal
import proofs.«430376_j52939766890718_3_alg».proof.Proof.Gen.ReferenceIdeal.Run
import proofs.«430376_j52939766890718_3_alg».proof.Proof.Gen.ReferenceIdeal.Read
import proofs.«430376_j52939766890718_3_alg».proof.Proof.Gen.Pre_finite_inputs
import proofs.«430376_j52939766890718_3_alg».proof.Proof.Spec
import proofs.«430376_j52939766890718_3_alg».proof.Proof.Bridge
import proofs.«430376_j52939766890718_3_alg».proof.Proof.KRun
import proofs.«430376_j52939766890718_3_alg».proof.Proof.Glue
import proofs.«430376_j52939766890718_3_alg».proof.Proof.RefVal
import Idealize.ShloMosaic.Adequacy
import Idealize.ShloMosaic.Init

noncomputable section

namespace Cert.Proof

open Idealize.ShloMosaic Idealize.ShloMosaic.TcCoe Idealize.SL.Sem

/-- The program's three results are the reference's functions of the arguments: the flattened linear layers folded
    back (`Spec.lin_flat`), the one-row bias of the closing layer read as a vector (`Spec.comb_row`). -/
theorem kOA_eq (m : (ℓ : Loc Cert.KernelIdeal.nD Cert.KernelIdeal.τ Cert.KernelIdeal.sig) → Buf (Elt Ideal) ℓ) (c : Dev Cert.KernelIdeal.nD) :
    Cert.KernelIdeal.Val.kOA m c
      = Spec.outA (Spec.proj (m ((c.tc : Thread _ Cert.KernelIdeal.τ).loc Cert.KernelIdeal.main_arg1)) (m ((c.tc : Thread _ Cert.KernelIdeal.τ).loc Cert.KernelIdeal.main_arg4)) (m ((c.tc : Thread _ Cert.KernelIdeal.τ).loc Cert.KernelIdeal.main_arg5)))
          (Spec.proj (m ((c.tc : Thread _ Cert.KernelIdeal.τ).loc Cert.KernelIdeal.main_arg0)) (m ((c.tc : Thread _ Cert.KernelIdeal.τ).loc Cert.KernelIdeal.main_arg2)) (m ((c.tc : Thread _ Cert.KernelIdeal.τ).loc Cert.KernelIdeal.main_arg3)))
          (m ((c.tc : Thread _ Cert.KernelIdeal.τ).loc Cert.KernelIdeal.main_arg1)) := by
  unfold Cert.KernelIdeal.Val.kOA Cert.KernelIdeal.Val.kMA Cert.KernelIdeal.Val.kMB
  rw [Spec.lin_flat, Spec.lin_flat]

theorem kOB_eq (m : (ℓ : Loc Cert.KernelIdeal.nD Cert.KernelIdeal.τ Cert.KernelIdeal.sig) → Buf (Elt Ideal) ℓ) (c : Dev Cert.KernelIdeal.nD) :
    Cert.KernelIdeal.Val.kOB m c
      = Spec.outB (Spec.proj (m ((c.tc : Thread _ Cert.KernelIdeal.τ).loc Cert.KernelIdeal.main_arg0)) (m ((c.tc : Thread _ Cert.KernelIdeal.τ).loc Cert.KernelIdeal.main_arg2)) (m ((c.tc : Thread _ Cert.KernelIdeal.τ).loc Cert.KernelIdeal.main_arg3)))
          (Spec.proj (m ((c.tc : Thread _ Cert.KernelIdeal.τ).loc Cert.KernelIdeal.main_arg1)) (m ((c.tc : Thread _ Cert.KernelIdeal.τ).loc Cert.KernelIdeal.main_arg4)) (m ((c.tc : Thread _ Cert.KernelIdeal.τ).loc Cert.KernelIdeal.main_arg5)))
          (m ((c.tc : Thread _ Cert.KernelIdeal.τ).loc Cert.KernelIdeal.main_arg0)) := by
  unfold Cert.KernelIdeal.Val.kOB Cert.KernelIdeal.Val.kMA Cert.KernelIdeal.Val.kMB
  rw [Spec.lin_flat, Spec.lin_flat]

theorem kOAB_eq (m : (ℓ : Loc Cert.KernelIdeal.nD Cert.KernelIdeal.τ Cert.KernelIdeal.sig) → Buf (Elt Ideal) ℓ) (c : Dev Cert.KernelIdeal.nD) :
    Cert.KernelIdeal.Val.kOAB m c
      = Spec.combV (Cert.KernelIdeal.Val.kOA m c) (Cert.KernelIdeal.Val.kOB m c)
          (m ((c.tc : Thread _ Cert.KernelIdeal.τ).loc Cert.KernelIdeal.main_arg6)) (m ((c.tc : Thread _ Cert.KernelIdeal.τ).loc Cert.KernelIdeal.main_arg7)) (m ((c.tc : Thread _ Cert.KernelIdeal.τ).loc Cert.KernelIdeal.main_arg8)) := by
  unfold Cert.KernelIdeal.Val.kOAB
  rw [Spec.comb_row]

/-- Both programs, run from memories that agree on the arguments, end with the same three arrays. -/
theorem algebraic : Cert.algebraic_KernelIdeal_ReferenceIdeal := by
  intro m ρ m' ρ' _ hagree
  refine ⟨fun c => Cert.KernelIdeal.Val.kOA m c, fun c => Cert.KernelIdeal.Val.kOB m c, fun c => Cert.KernelIdeal.Val.kOAB m c, ?_, ?_⟩
  · exact (θ_run Cert.KernelIdeal.defs _ _).mono
      (fun r h c => ⟨(h c).1.trans (Cert.KernelIdeal.Val.W8_v16_0 m ρ c), (h c).2.1.trans (Cert.KernelIdeal.Val.W8_v14 m ρ c),
        (h c).2.2.1.trans (Cert.KernelIdeal.Val.W8_v16_1 m ρ c), (h c).2.2.2⟩)
      (Cert.KernelIdeal.Gen.run_vals (F := Ideal) m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · show _ = Cert.KernelIdeal.Val.kOA m c
      rw [Cert.ReferenceIdeal.Read.val_main_v32_eq, Cert.ReferenceIdeal.RefVal.v32_eq, kOA_eq,
        (hagree c).1, (hagree c).2.1, (hagree c).2.2.1, (hagree c).2.2.2.1, (hagree c).2.2.2.2.1, (hagree c).2.2.2.2.2.1]
    · show _ = Cert.KernelIdeal.Val.kOB m c
      rw [Cert.ReferenceIdeal.Read.val_main_v34_eq, Cert.ReferenceIdeal.RefVal.v34_eq, kOB_eq,
        (hagree c).1, (hagree c).2.1, (hagree c).2.2.1, (hagree c).2.2.2.1, (hagree c).2.2.2.2.1, (hagree c).2.2.2.2.2.1]
    · show _ = Cert.KernelIdeal.Val.kOAB m c
      rw [Cert.ReferenceIdeal.Read.val_main_v40_eq, Cert.ReferenceIdeal.RefVal.v40_eq, kOAB_eq, kOA_eq, kOB_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  algebraic⟩

end Cert.Proof

end
